-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v8_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v8_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x32x1024 : Shape := ⟨3, ![2048, 32, 1024]⟩
abbrev S32 : Shape := ⟨1, ![32]⟩
abbrev S1024x32x1024 : Shape := ⟨3, ![1024, 32, 1024]⟩
abbrev S1024x2048 : Shape := ⟨2, ![1024, 2048]⟩
abbrev S1024 : Shape := ⟨1, ![1024]⟩
abbrev S_ : Shape := ⟨0, ![]⟩

class Facts : Prop where
  bcast_S_S2048x32x1024 : S_.BroadcastsInDim S2048x32x1024 (![] : Fin 0 → Fin S2048x32x1024.rank)
  reducesTo_S2048x32x1024_S_d0_1_2 : S2048x32x1024.ReducesTo [0, 1, 2] S_
  h_S_ : 0 < S_.numel
  bcast_S_S1024x32x1024 : S_.BroadcastsInDim S1024x32x1024 (![] : Fin 0 → Fin S1024x32x1024.rank)
  reducesTo_S1024x32x1024_S_d0_1_2 : S1024x32x1024.ReducesTo [0, 1, 2] S_
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S2048x32x1024 .f32) (main_arg1 : IVec S32 32) (main_arg2 : FVec F S1024x32x1024 .f32) (main_arg3 : FVec F S1024x2048 .f32) (main_arg4 : FVec F S1024 .f32) : IVec S_ 1 :=
  let main_v0 : FVec F S2048x32x1024 .f32 := Host.absf main_arg0
  let main_cst : FVec F S_ .f32 := constant S_ .f32 0x7F800000#32
  let main_v1 : FVec F S2048x32x1024 .f32 := broadcastInDim S2048x32x1024 ![] bcast_S_S2048x32x1024 main_cst
  let main_v2 : IVec S2048x32x1024 1 := cmpf .olt main_v0 main_v1
  let main_c : IVec S_ 1 := constantI S_ 1 1#1
  let main_v3 : IVec S_ 1 := (fun x v => Host.reduce IntOp.andi x v reducesTo_S2048x32x1024_S_d0_1_2 h_S_) main_v2 main_c
  let main_v4 : FVec F S1024x32x1024 .f32 := Host.absf main_arg2
  let main_cst_0 : FVec F S_ .f32 := constant S_ .f32 0x7F800000#32
  let main_v5 : FVec F S1024x32x1024 .f32 := broadcastInDim S1024x32x1024 ![] bcast_S_S1024x32x1024 main_cst_0
  let main_v6 : IVec S1024x32x1024 1 := cmpf .olt main_v4 main_v5
  let main_c_1 : IVec S_ 1 := constantI S_ 1 1#1
  let main_v7 : IVec S_ 1 := (fun x v => Host.reduce IntOp.andi x v reducesTo_S1024x32x1024_S_d0_1_2 h_S_) main_v6 main_c_1
  let main_v8 : IVec S_ 1 := andi main_v3 main_v7
  let main_v9 : FVec F S1024x2048 .f32 := Host.absf main_arg3
  let main_cst_2 : FVec F S_ .f32 := constant S_ .f32 0x7F800000#32
  let main_v10 : FVec F S1024x2048 .f32 := broadcastInDim S1024x2048 ![] bcast_S_S1024x2048 main_cst_2
  let main_v11 : IVec S1024x2048 1 := cmpf .olt main_v9 main_v10
  let main_c_3 : IVec S_ 1 := constantI S_ 1 1#1
  let main_v12 : IVec S_ 1 := (fun x v => Host.reduce IntOp.andi x v reducesTo_S1024x2048_S_d0_1 h_S_) main_v11 main_c_3
  let main_v13 : IVec S_ 1 := andi main_v8 main_v12
  let main_v14 : FVec F S1024 .f32 := Host.absf main_arg4
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S2048x32x1024 : Shape := ⟨3, ![2048, 32, 1024]⟩
abbrev S32 : Shape := ⟨1, ![32]⟩
abbrev S1024x32x1024 : Shape := ⟨3, ![1024, 32, 1024]⟩
abbrev S1024x2048 : Shape := ⟨2, ![1024, 2048]⟩
abbrev S1024 : Shape := ⟨1, ![1024]⟩
abbrev S32x2048x1024 : Shape := ⟨3, ![32, 2048, 1024]⟩
abbrev S32x1024x1024 : Shape := ⟨3, ![32, 1024, 1024]⟩
abbrev S1024x1024 : Shape := ⟨2, ![1024, 1024]⟩
abbrev S32x1024x2048 : Shape := ⟨3, ![32, 1024, 2048]⟩
abbrev S1x2048x1024 : Shape := ⟨3, ![1, 2048, 1024]⟩
abbrev S1x512x1024 : Shape := ⟨3, ![1, 512, 1024]⟩
abbrev S1x512x2048 : Shape := ⟨3, ![1, 512, 2048]⟩
abbrev S1 : Shape := ⟨1, ![1]⟩
abbrev S512x1024 : Shape := ⟨2, ![512, 1024]⟩
abbrev S2048x1024 : Shape := ⟨2, ![2048, 1024]⟩
abbrev S512x2048 : Shape := ⟨2, ![512, 2048]⟩
abbrev S512 : Shape := ⟨1, ![512]⟩
abbrev S512x1 : Shape := ⟨2, ![512, 1]⟩
abbrev S1x1024 : Shape := ⟨2, ![1, 1024]⟩

abbrev nBuf : Space → Nat
  | .hbm => 15
  | .vmem => 10
  | .smem => 1
  | _ => 0

abbrev bufTy : (tb : Table) → Fin (tcTables nBuf tb) → BufTy
  | .hbm, ⟨0, _⟩ => ⟨S2048x32x1024, .f32⟩
  | .hbm, ⟨1, _⟩ => ⟨S1024x32x1024, .f32⟩
  | .hbm, ⟨2, _⟩ => ⟨S1024x2048, .f32⟩
  | .hbm, ⟨3, _⟩ => ⟨S1024, .f32⟩
  | .hbm, ⟨4, _⟩ => ⟨S32x2048x1024, .f32⟩
  | .hbm, ⟨5, _⟩ => ⟨S32x2048x1024, .bf16⟩
  | .hbm, ⟨6, _⟩ => ⟨S32x1024x1024, .f32⟩
  | .hbm, ⟨7, _⟩ => ⟨S32x1024x1024, .bf16⟩
  | .hbm, ⟨8, _⟩ => ⟨S1024x1024, .f32⟩
  | .hbm, ⟨9, _⟩ => ⟨S1024x1024, .bf16⟩
  | .hbm, ⟨10, _⟩ => ⟨S1024x1024, .f32⟩
  | .hbm, ⟨11, _⟩ => ⟨S1024x1024, .bf16⟩
  | .hbm, ⟨12, _⟩ => ⟨S32x1024x2048, .f32⟩
  | .hbm, ⟨13, _⟩ => ⟨S32x1024x1024, .f32⟩
  | .hbm, ⟨14, _⟩ => ⟨S1024x32x1024, .f32⟩
  | .local _ .vmem, ⟨0, _⟩ => ⟨S1x2048x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024, .f32⟩
  | .local _ .vmem, ⟨6, _⟩ => ⟨S1x512x2048, .f32⟩
  | .local _ .vmem, ⟨7, _⟩ => ⟨S1x512x2048, .f32⟩
  | .local _ .vmem, ⟨8, _⟩ => ⟨S1x512x1024, .f32⟩
  | .local _ .vmem, ⟨9, _⟩ => ⟨S1x512x1024, .f32⟩
  | .local _ .smem, ⟨0, _⟩ => ⟨S32, .i32⟩
  | _, _ => ⟨S2048x32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev main_v9 : Ref sig .tc := ⟨.hbm, 14, rfl⟩
abbrev main_arg1 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![32, 2], ![false, false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  transposes_S2048x32x1024_S32x2048x1024_1_0_2 : S2048x32x1024.Transposes [1, 0, 2] S32x2048x1024
  bitsLt_bf16_f32 : FTy.bits .bf16 < FTy.bits .f32
  transposes_S1024x32x1024_S32x1024x1024_1_0_2 : S1024x32x1024.Transposes [1, 0, 2] S32x1024x1024
  slices_S1024x2048_S1024x1024_0_0 : S1024x2048.Slices ![0, 0] S1024x1024
  slices_S1024x2048_S1024x1024_0_1024 : S1024x2048.Slices ![0, 1024] S1024x1024
  numel1_S1 : S1.numel = 1
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  iota_S512x2048_d1_w32 : S512x2048.Iotas .tc 32 [1]
  reduces_S512x2048_S512 : S512x2048.Reduces [1] S512
  shapeCasts_S512_S512x1 : S512.ShapeCasts S512x1
  broadcasts_S512x1_S512x2048 : S512x1.Broadcasts S512x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S512x2048_S1x512x2048 : S512x2048.ShapeCasts S1x512x2048
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  shapeCasts_S512x1024_S1x512x1024 : S512x1024.ShapeCasts S1x512x1024
  transposes_S32x1024x1024_S1024x32x1024_1_0_2 : S32x1024x1024.Transposes [1, 0, 2] S1024x32x1024
  dot_S512x1024_S2048x1024_S512x2048_1_1_0_0_n_n_wf : DotDims.WF S512x1024 S2048x1024 S512x2048 [1] [1] [0] [0] [] []
  dot_S512x2048_S2048x1024_S512x1024_1_0_0_1_n_n_wf : DotDims.WF S512x2048 S2048x1024 S512x1024 [1] [0] [0] [1] [] []
  dot_S512x1024_S1024x1024_S512x1024_1_1_0_0_n_n_wf : DotDims.WF S512x1024 S1024x1024 S512x1024 [1] [1] [0] [0] [] []
  hrank0 : 0 < grid0.rank
  k0_off1_inb : ∀ i : grid0.Coords, ∀ a, (k0_off1 i) a + S1.size a ≤ S32.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S32x2048x1024.size a
  hwx0_0 : ∀ i : grid0.Coords, EltTy.bits .bf16 = 32 ∨ (Rect.block (s := S32x2048x1024) S1x2048x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S32x1024x1024.size a
  hwx0_1 : ∀ i : grid0.Coords, EltTy.bits .bf16 = 32 ∨ (Rect.block (s := S32x1024x1024) S1x512x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S1024.size a
  hwx0_4 : ∀ i : grid0.Coords, EltTy.bits .f32 = 32 ∨ (Rect.block (s := S1024) S1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x2048.size a ≤ S32x1024x2048.size a
  hwx0_5 : ∀ i : grid0.Coords, EltTy.bits .f32 = 32 ∨ (Rect.block (s := S32x1024x2048) S1x512x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512x1024.size a ≤ S32x1024x1024.size a
  hwx0_6 : ∀ i : grid0.Coords, EltTy.bits .f32 = 32 ∨ (Rect.block (s := S32x1024x1024) S1x512x1024.size (cc0_transform_6 i) (hinb0_6 i)).WholeWords (EltTy.packing .f32)

variable [Facts₀]

def dot_S512x1024_S2048x1024_S512x2048_1_1_0_0_n_n : DotDims S512x1024 S2048x1024 S512x2048 where
  lhsContracting := [1]
  rhsContracting := [1]
  lhsNonContracting := [0]
  rhsNonContracting := [0]
  lhsBatch := []
  rhsBatch := []
  wf := dot_S512x1024_S2048x1024_S512x2048_1_1_0_0_n_n_wf
def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf
def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev spec0_0 : Pipeline.WinSpec sig grid0.rank :=
  Pipeline.WinSpec.ofSpec (Memref.whole main_v1) S1x2048x1024.size reads0_0 false true 1 stage0_0 sem0_0 nbuf0_0 hstage0_0

abbrev spec0_1 : Pipeline.WinSpec sig grid0.rank :=
  Pipeline.WinSpec.ofSpec (Memref.whole main_v3) S1x512x1024.size reads0_1 false false 2 stage0_1 sem0_1 nbuf0_1 hstage0_1

abbrev spec0_2 : Pipeline.WinSpec sig grid0.rank :=
  Pipeline.WinSpec.ofSpec (Memref.whole main_v5) S1024x1024.size reads0_2 false true 1 stage0_2 sem0_2 nbuf0_2 hstage0_2

abbrev spec0_3 : Pipeline.WinSpec sig grid0.rank :=
  Pipeline.WinSpec.ofSpec (Memref.whole main_v7) S1024x1024.size reads0_3 false true 1 stage0_3 sem0_3 nbuf0_3 hstage0_3

abbrev spec0_4 : Pipeline.WinSpec sig grid0.rank :=
  Pipeline.WinSpec.ofSpec (Memref.whole main_arg4) S1024.size reads0_4 false true 1 stage0_4 sem0_4 nbuf0_4 hstage0_4

abbrev spec0_5 : Pipeline.WinSpec sig grid0.rank :=
  Pipeline.WinSpec.ofSpec (Memref.whole main_v8_0) S1x512x2048.size reads0_5 true false 2 stage0_5 sem0_5 nbuf0_5 hstage0_5

abbrev spec0_6 : Pipeline.WinSpec sig grid0.rank :=
  Pipeline.WinSpec.ofSpec (Memref.whole main_v8_1) S1x512x1024.size reads0_6 true false 2 stage0_6 sem0_6 nbuf0_6 hstage0_6

abbrev spec0 : Fin 7 → Pipeline.WinSpec sig grid0.rank := fun | 0 => spec0_0 | 1 => spec0_1 | 2 => spec0_2 | 3 => spec0_3 | 4 => spec0_4 | 5 => spec0_5 | 6 => spec0_6 | ⟨_ + 7, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | 6 => nbuf0_6 | ⟨_ + 7, h⟩ => absurd h (Nat.not_lt.2 (Nat.le_add_left _ _))
abbrev ix0 (pf : pre0.Contents (Elt F)) : (w : Fin 7) → grid0.Coords → Fin (spec0 w).shape.rank → Nat := fun | 0 => cc0_transform_0 | 1 => cc0_transform_1 | 2 => cc0_transform_2 | 3 => cc0_transform_3 | 4 => cc0_transform_4 | 5 => cc0_transform_5 | 6 => cc0_transform_6 | ⟨_ + 7, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | 4 => hreads0_4 | 5 => hreads0_5 | 6 => hreads0_6 | ⟨_ + 7, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | 4 => hinb0_4 | 5 => hinb0_5 | 6 => hinb0_6 | ⟨_ + 7, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | 4 => hwx0_4 | 5 => hwx0_5 | 6 => hwx0_6 | ⟨_ + 7, h⟩ => absurd h (Nat.not_lt.2 (Nat.le_add_left _ _))

class Facts : Prop extends Facts₀ where
  harr0 : ∀ w, (spec0 w).arr.IsWhole

variable [Facts]
-- ==== ReferenceIdeal.lean ====
abbrev S2048x32x1024 : Shape := ⟨3, ![2048, 32, 1024]⟩
abbrev S32 : Shape := ⟨1, ![32]⟩
abbrev S1024x32x1024 : Shape := ⟨3, ![1024, 32, 1024]⟩
abbrev S1024x2048 : Shape := ⟨2, ![1024, 2048]⟩
abbrev S1024 : Shape := ⟨1, ![1024]⟩
abbrev S32x2048x1024 : Shape := ⟨3, ![32, 2048, 1024]⟩
abbrev S32x1024x1024 : Shape := ⟨3, ![32, 1024, 1024]⟩
abbrev S32x1024x2048 : Shape := ⟨3, ![32, 1024, 2048]⟩
abbrev S2048 : Shape := ⟨1, ![2048]⟩
abbrev S1x2048 : Shape := ⟨2, ![1, 2048]⟩
abbrev S32x1 : Shape := ⟨2, ![32, 1]⟩
abbrev S32x2048 : Shape := ⟨2, ![32, 2048]⟩
abbrev S32x1x2048 : Shape := ⟨3, ![32, 1, 2048]⟩
abbrev S_ : Shape := ⟨0, ![]⟩
abbrev S32x1024 : Shape := ⟨2, ![32, 1024]⟩
abbrev S32x1024x1 : Shape := ⟨3, ![32, 1024, 1]⟩
abbrev S1024x32x2048 : Shape := ⟨3, ![1024, 32, 2048]⟩
abbrev S1x1x1024 : Shape := ⟨3, ![1, 1, 1024]⟩

abbrev nBuf : Space → Nat
  | .hbm => 42
  | .vmem => 0
  | .smem => 0
  | _ => 0

abbrev bufTy : (tb : Table) → Fin (tcTables nBuf tb) → BufTy
  | .hbm, ⟨0, _⟩ => ⟨S2048x32x1024, .f32⟩
  | .hbm, ⟨1, _⟩ => ⟨S32, .i32⟩
  | .hbm, ⟨2, _⟩ => ⟨S1024x32x1024, .f32⟩
  | .hbm, ⟨3, _⟩ => ⟨S1024x2048, .f32⟩
  | .hbm, ⟨4, _⟩ => ⟨S1024, .f32⟩
  | .hbm, ⟨5, _⟩ => ⟨S32x2048x1024, .f32⟩
  | .hbm, ⟨6, _⟩ => ⟨S32x1024x1024, .f32⟩
  | .hbm, ⟨7, _⟩ => ⟨S32x1024x2048, .f32⟩
  | .hbm, ⟨8, _⟩ => ⟨S2048, .i32⟩
  | .hbm, ⟨9, _⟩ => ⟨S1x2048, .i32⟩
  | .hbm, ⟨10, _⟩ => ⟨S32x1, .i32⟩
  | .hbm, ⟨11, _⟩ => ⟨S32x2048, .i32⟩
  | .hbm, ⟨12, _⟩ => ⟨S32x2048, .i32⟩
  | .hbm, ⟨13, _⟩ => ⟨S32x2048, .i1⟩
  | .hbm, ⟨14, _⟩ => ⟨S32x1x2048, .i1⟩
  | .hbm, ⟨15, _⟩ => ⟨S_, .f32⟩
  | .hbm, ⟨16, _⟩ => ⟨S_, .f32⟩
  | .hbm, ⟨17, _⟩ => ⟨S32x1024x2048, .i1⟩
  | .hbm, ⟨18, _⟩ => ⟨S32x1024x2048, .f32⟩
  | .hbm, ⟨19, _⟩ => ⟨S32x1024x2048, .f32⟩
  | .hbm, ⟨20, _⟩ => ⟨S_, .f32⟩
  | .hbm, ⟨21, _⟩ => ⟨S32x1024, .f32⟩
  | .hbm, ⟨22, _⟩ => ⟨S_, .f32⟩
  | .hbm, ⟨23, _⟩ => ⟨S32x1024, .f32⟩
  | .hbm, ⟨24, _⟩ => ⟨S32x1024, .f32⟩
  | .hbm, ⟨25, _⟩ => ⟨S32x1024x1, .f32⟩
  | .hbm, ⟨26, _⟩ => ⟨S32x1024x2048, .f32⟩
  | .hbm, ⟨27, _⟩ => ⟨S32x1024x2048, .f32⟩
  | .hbm, ⟨28, _⟩ => ⟨S32x1024x2048, .f32⟩
  | .hbm, ⟨29, _⟩ => ⟨S_, .f32⟩
  | .hbm, ⟨30, _⟩ => ⟨S32x1024, .f32⟩
  | .hbm, ⟨31, _⟩ => ⟨S32x1024x1, .f32⟩
  | .hbm, ⟨32, _⟩ => ⟨S32x1024x2048, .f32⟩
  | .hbm, ⟨33, _⟩ => ⟨S32x1024x2048, .f32⟩
  | .hbm, ⟨34, _⟩ => ⟨S32x1024x1024, .f32⟩
  | .hbm, ⟨35, _⟩ => ⟨S1024x32x1024, .f32⟩
  | .hbm, ⟨36, _⟩ => ⟨S1024x32x2048, .f32⟩
  | .hbm, ⟨37, _⟩ => ⟨S1024x32x1024, .f32⟩
  | .hbm, ⟨38, _⟩ => ⟨S1x1x1024, .f32⟩
  | .hbm, ⟨39, _⟩ => ⟨S1024x32x1024, .f32⟩
  | .hbm, ⟨40, _⟩ => ⟨S1024x32x1024, .f32⟩
  | .hbm, ⟨41, _⟩ => ⟨S1024x32x1024, .f32⟩
  | _, _ => ⟨S2048x32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]

class Facts₀ : Prop where
  transposes_S2048x32x1024_S32x2048x1024_1_0_2 : S2048x32x1024.Transposes [1, 0, 2] S32x2048x1024
  transposes_S1024x32x1024_S32x1024x1024_1_0_2 : S1024x32x1024.Transposes [1, 0, 2] S32x1024x1024
  bcast_S2048_S1x2048_1 : S2048.BroadcastsInDim S1x2048 (![1] : Fin 1 → Fin S1x2048.rank)
  bcast_S32_S32x1_0 : S32.BroadcastsInDim S32x1 (![0] : Fin 1 → Fin S32x1.rank)
  bcast_S1x2048_S32x2048_0_1 : S1x2048.BroadcastsInDim S32x2048 (![0, 1] : Fin 2 → Fin S32x2048.rank)
  bcast_S32x1_S32x2048_0_1 : S32x1.BroadcastsInDim S32x2048 (![0, 1] : Fin 2 → Fin S32x2048.rank)
  bcast_S32x2048_S32x1x2048_0_2 : S32x2048.BroadcastsInDim S32x1x2048 (![0, 2] : Fin 2 → Fin S32x1x2048.rank)
  bcast_S32x1x2048_S32x1024x2048_0_1_2 : S32x1x2048.BroadcastsInDim S32x1024x2048 (![0, 1, 2] : Fin 3 → Fin S32x1024x2048.rank)
  bcast_S_S32x1024x2048 : S_.BroadcastsInDim S32x1024x2048 (![] : Fin 0 → Fin S32x1024x2048.rank)
  reducesTo_S32x1024x2048_S32x1024_d2 : S32x1024x2048.ReducesTo [2] S32x1024
  h_S_ : 0 < S_.numel
  bcast_S_S32x1024 : S_.BroadcastsInDim S32x1024 (![] : Fin 0 → Fin S32x1024.rank)
  bcast_S32x1024_S32x1024x1_0_1 : S32x1024.BroadcastsInDim S32x1024x1 (![0, 1] : Fin 2 → Fin S32x1024x1.rank)
  bcast_S32x1024x1_S32x1024x2048_0_1_2 : S32x1024x1.BroadcastsInDim S32x1024x2048 (![0, 1, 2] : Fin 3 → Fin S32x1024x2048.rank)
  transposes_S32x1024x1024_S1024x32x1024_1_0_2 : S32x1024x1024.Transposes [1, 0, 2] S1024x32x1024
  concatenates_S1024x32x1024_S1024x32x1024_S1024x32x2048_d2 : Shape.Concatenates [S1024x32x1024, S1024x32x1024] S1024x32x2048 2
  bcast_S1024_S1x1x1024_2 : S1024.BroadcastsInDim S1x1x1024 (![2] : Fin 1 → Fin S1x1x1024.rank)
  bcast_S1x1x1024_S1024x32x1024_0_1_2 : S1x1x1024.BroadcastsInDim S1024x32x1024 (![0, 1, 2] : Fin 3 → Fin S1024x32x1024.rank)
  dot_S32x1024x1024_S32x2048x1024_S32x1024x2048_2_2_1_1_0_0_wf : DotDims.WF S32x1024x1024 S32x2048x1024 S32x1024x2048 [2] [2] [1] [1] [0] [0]
  dot_S32x1024x2048_S32x2048x1024_S32x1024x1024_2_1_1_2_0_0_wf : DotDims.WF S32x1024x2048 S32x2048x1024 S32x1024x1024 [2] [1] [1] [2] [0] [0]
  dot_S1024x32x2048_S1024x2048_S1024x32x1024_2_1_01_0_n_n_wf : DotDims.WF S1024x32x2048 S1024x2048 S1024x32x1024 [2] [1] [0, 1] [0] [] []

variable [Facts₀]

def dot_S32x1024x1024_S32x2048x1024_S32x1024x2048_2_2_1_1_0_0 : DotDims S32x1024x1024 S32x2048x1024 S32x1024x2048 where
  lhsContracting := [2]
  rhsContracting := [2]
  lhsNonContracting := [1]
  rhsNonContracting := [1]
  lhsBatch := [0]
  rhsBatch := [0]
  wf := dot_S32x1024x1024_S32x2048x1024_S32x1024x2048_2_2_1_1_0_0_wf
def dot_S32x1024x2048_S32x2048x1024_S32x1024x1024_2_1_1_2_0_0 : DotDims S32x1024x2048 S32x2048x1024 S32x1024x1024 where
  lhsContracting := [2]
  rhsContracting := [1]
  lhsNonContracting := [1]
  rhsNonContracting := [2]
  lhsBatch := [0]
  rhsBatch := [0]
  wf := dot_S32x1024x2048_S32x2048x1024_S32x1024x1024_2_1_1_2_0_0_wf
def dot_S1024x32x2048_S1024x2048_S1024x32x1024_2_1_01_0_n_n : DotDims S1024x32x2048 S1024x2048 S1024x32x1024 where
  lhsContracting := [2]
  rhsContracting := [1]
  lhsNonContracting := [0, 1]
  rhsNonContracting := [0]
  lhsBatch := []
  rhsBatch := []
  wf := dot_S1024x32x2048_S1024x2048_S1024x32x1024_2_1_01_0_n_n_wf

class Facts : Prop extends Facts₀ where

variable [Facts]
-- ==== Proof.Attention.lean ====
/-
  Length-masked dot-product attention followed by a tanh projection, one query row at a time, on the extended reals.

  For a query row `q : Fin 1024 → EReal`, the encoder rows `enc : Fin 2048 → Fin 1024 → EReal` of the same batch entry and
  that entry's length word `len`:

    score q enc s        = ∑ h, q h * enc s h
    masked len x s       = x s where s < len (as signed 32-bit words), the fill −1e30 elsewhere
    softmax x s          = exp (x s − max x) / ∑ k, exp (x k − max x)          (the maximum taken from −∞)
    weights len q enc    = softmax (masked len (score q enc))
    mix a enc h          = ∑ s, a s * enc s h
    project c q W β h    = tanh ((∑ f, c f * W h f + ∑ f, q f * W h (1024 + f)) + β h)

  and the two facts that join an evaluation tile by tile to an evaluation of whole arrays: a maximum taken once more
  against the value it started from is unchanged, and a sum over 2048 columns is the sum over the first 1024 plus the
  sum over the last 1024.
-/
import Idealize.ShloMosaic.PureOps.Ideal
import Idealize.ShloMosaic.Lib.ValueIdx

noncomputable section

open scoped BigOperators

namespace Cert.Attention

open Idealize.ShloMosaic

/-- The finite stand-in for −∞ that a masked score is filled with (the f32 word of −1e30). -/
abbrev fill : EReal := Ideal.ofBits .f32 0xF149F2CA#32

/-- The value a row maximum starts from (the f32 word of −∞). -/
abbrev maxInit : EReal := Ideal.ofBits .f32 0xFF800000#32

/-- The score of a query row against encoder row `s`: their inner product. -/
def score (q : Fin 1024 → EReal) (enc : Fin 2048 → Fin 1024 → EReal) (s : Fin 2048) : EReal :=
  ∑ h : Fin 1024, q h * enc s h

/-- Position `s` keeps its score when `s < len` as signed words, and takes the fill otherwise. -/
def masked (len : BitVec 32) (x : Fin 2048 → EReal) (s : Fin 2048) : EReal :=
  Scalar.select (IntOp.cmpi .slt (BitVec.ofNat 32 s.val) len) (x s) fill

/-- A row's maximum, folded from −∞. -/
def rowMax (x : Fin 2048 → EReal) : EReal := (Finset.univ : Finset (Fin 2048)).fold max maxInit x

/-- The softmax of a row. -/
def softmax (x : Fin 2048 → EReal) (s : Fin 2048) : EReal :=
  Ideal.div (Ideal.exp (x s - rowMax x)) (∑ k : Fin 2048, Ideal.exp (x k - rowMax x))

/-- The attention weights of a query row. -/
def weights (len : BitVec 32) (q : Fin 1024 → EReal) (enc : Fin 2048 → Fin 1024 → EReal) : Fin 2048 → EReal :=
  softmax (masked len (score q enc))

/-- The encoder rows mixed by a row of weights. -/
def mix (a : Fin 2048 → EReal) (enc : Fin 2048 → Fin 1024 → EReal) (h : Fin 1024) : EReal :=
  ∑ s : Fin 2048, a s * enc s h

/-- Column `f` of the left half of a 2048-column matrix. -/
abbrev lo (f : Fin 1024) : Fin 2048 := ⟨f.val, by have := f.isLt; omega⟩
/-- Column `f` of the right half. -/
abbrev hi (f : Fin 1024) : Fin 2048 := ⟨1024 + f.val, by have := f.isLt; omega⟩

/-- The output projection with the weight given as its two halves: `tanh ((c · Wl h + q · Wr h) + β h)`. -/
def project2 (c q : Fin 1024 → EReal) (Wl Wr : Fin 1024 → Fin 1024 → EReal) (β : Fin 1024 → EReal) (h : Fin 1024) : EReal :=
  Ideal.tanh (((∑ f : Fin 1024, c f * Wl h f) + ∑ f : Fin 1024, q f * Wr h f) + β h)

/-- The output projection of a mixed row `c` and its query row `q`: `tanh ([c, q] · W h + β h)`, the product written
    as the two halves' sums. -/
def project (c q : Fin 1024 → EReal) (W : Fin 1024 → Fin 2048 → EReal) (β : Fin 1024 → EReal) : Fin 1024 → EReal :=
  project2 c q (fun h f => W h (lo f)) (fun h f => W h (hi f)) β

/-! ## The arrays: time-major encoder states `[2048, 32, 1024]`, lengths `[32]`, time-major queries `[1024, 32, 1024]`,
     the projection's weight `[1024, 2048]` and bias `[1024]` -/

open Idealize.ShloMosaic.ValueIdx

/-- Query row `(t, b)` of the time-major queries. -/
abbrev qrow (dhs : (⟨3, ![1024, 32, 1024]⟩ : Shape).Idx → EReal) (t : Fin 1024) (b : Fin 32) : Fin 1024 → EReal :=
  fun h => dhs (ix3 t b h)

/-- The encoder rows of batch entry `b` of the time-major encoder states. -/
abbrev encRows (ctx : (⟨3, ![2048, 32, 1024]⟩ : Shape).Idx → EReal) (b : Fin 32) : Fin 2048 → Fin 1024 → EReal :=
  fun s h => ctx (ix3 s b h)

/-- The attention weights of query `(t, b)`: entry `[b, t, ·]` of the weights result. -/
def attnAt (ctx : (⟨3, ![2048, 32, 1024]⟩ : Shape).Idx → EReal) (len : (⟨1, ![32]⟩ : Shape).Idx → BitVec 32)
    (dhs : (⟨3, ![1024, 32, 1024]⟩ : Shape).Idx → EReal) (b : Fin 32) (t : Fin 1024) : Fin 2048 → EReal :=
  weights (len (ix1 b)) (qrow dhs t b) (encRows ctx b)

/-- The projected state of query `(t, b)`: entry `[t, b, ·]` of the states result. -/
def stateAt (ctx : (⟨3, ![2048, 32, 1024]⟩ : Shape).Idx → EReal) (len : (⟨1, ![32]⟩ : Shape).Idx → BitVec 32)
    (dhs : (⟨3, ![1024, 32, 1024]⟩ : Shape).Idx → EReal) (W : (⟨2, ![1024, 2048]⟩ : Shape).Idx → EReal)
    (β : (⟨1, ![1024]⟩ : Shape).Idx → EReal) (t : Fin 1024) (b : Fin 32) : Fin 1024 → EReal :=
  project (mix (attnAt ctx len dhs b t) (encRows ctx b)) (qrow dhs t b) (fun h f => W (ix2 h f)) (fun h => β (ix1 h))

/-- A maximum folded from `a`, taken once more against `a`, is itself. -/
theorem max_fold_self {n : Nat} (a : EReal) (x : Fin n → EReal) :
    max a ((Finset.univ : Finset (Fin n)).fold max a x) = (Finset.univ : Finset (Fin n)).fold max a x :=
  max_eq_right ((Finset.le_fold_max a).2 (Or.inl le_rfl))

/-- A sum over 2048 columns is the sum over the left half plus the sum over the right half. -/
theorem sum_halves (g : Fin 2048 → EReal) : ∑ k : Fin 2048, g k = (∑ f : Fin 1024, g (lo f)) + ∑ f : Fin 1024, g (hi f) := by
  exact Fin.sum_univ_add (a := 1024) (b := 1024) (fun k : Fin (1024 + 1024) => g k)

end Cert.Attention

end
-- ==== Proof.RefRows.lean ====
/-
  The reference program of the length-masked dot-product attention, read one entry at a time on the extended reals.

  Its 37 operations compute, for batch entry b, query position t and encoder position s,

    scores[b, t, s]  = ∑ h, dhs[t, b, h] * ctx[s, b, h]                      (a batched contraction of two transposes)
    masked[b, t, s]  = scores[b, t, s] where s < len[b] as signed words, the fill word elsewhere
    m[b, t]          = max (−∞) (the maximum over s of masked[b, t, s], folded from −∞)
    e[b, t, s]       = exp (masked[b, t, s] − m[b, t])
    attn[b, t, s]    = e[b, t, s] / (0 + ∑ k, e[b, t, k])
    c[b, t, h]       = ∑ s, attn[b, t, s] * ctx[s, b, h]
    states[t, b, h]  = tanh (∑ k < 2048, [c[b, t, ·], dhs[t, b, ·]] k * W[h, k] + β[h])

  Each stage below is the corresponding generated stage read at explicit coordinates and identified with the
  specification's row functions: the extra maximum against −∞ is absorbed because the fold already starts from −∞, the
  sum's initial zero is dropped, and the contraction over the 2048 concatenated columns is split into the mixed half and
  the query half. Nothing is asked of the inputs: only that equal terms may be rewritten, and the laws of sums and maxima.
-/
import proofs.«403672_j15187004358886_2_alg».proof.Proof.RefRead
import proofs.«403672_j15187004358886_2_alg».proof.Proof.Attention
import Idealize.ShloMosaic.Lib.ValueIdx
import Idealize.ShloMosaic.Lib.Pipeline.Value
import Idealize.ShloMosaic.PureOps.Reduce
import Idealize.ShloMosaic.PureOps.Ideal.Laws

noncomputable section

open scoped BigOperators

namespace Cert.RefRows

open Cert.ReferenceIdeal Cert.ReferenceIdeal.ReadP Cert.Attention Idealize.ShloMosaic Idealize.ShloMosaic.ValueIdx

/-! ## The stages' index maps at explicit coordinates -/

/-- The encoder states' transpose reads entry [b, s, h] at [s, b, h]. -/
theorem idx_v0 (b : Fin 32) (s : Fin 2048) (h : Fin 1024) : idx_main_v0 (ix3 b s h) = ix3 s b h :=
  funext fun a => Fin.ext (by match a with | ⟨0, _⟩ => rfl | ⟨1, _⟩ => rfl | ⟨2, _⟩ => rfl)

/-- The queries' transpose reads entry [b, t, h] at [t, b, h]. -/
theorem idx_v1 (b : Fin 32) (t : Fin 1024) (h : Fin 1024) : idx_main_v1 (ix3 b t h) = ix3 t b h :=
  funext fun a => Fin.ext (by match a with | ⟨0, _⟩ => rfl | ⟨1, _⟩ => rfl | ⟨2, _⟩ => rfl)

/-- The scores' contraction reads the transposed queries at [b, t, k] … -/
theorem lidx_v2 (b : Fin 32) (t : Fin 1024) (s : Fin 2048) (k : Fin 1024) : lidx_main_v2 (ix3 b t s) k = ix3 b t k :=
  funext fun a => Fin.ext (by match a with | ⟨0, _⟩ => rfl | ⟨1, _⟩ => rfl | ⟨2, _⟩ => rfl)

/-- … and the transposed encoder states at [b, s, k]. -/
theorem ridx_v2 (b : Fin 32) (t : Fin 1024) (s : Fin 2048) (k : Fin 1024) : ridx_main_v2 (ix3 b t s) k = ix3 b s k :=
  funext fun a => Fin.ext (by match a with | ⟨0, _⟩ => rfl | ⟨1, _⟩ => rfl | ⟨2, _⟩ => rfl)

/-- The position counter under the mask's broadcasts is read at s. -/
theorem idx_iota (b : Fin 32) (t : Fin 1024) (s : Fin 2048) :
    idx_main_v4 (idx_main_v6 (idx_main_v9 (idx_main_call0_v1 (ix3 b t s)))) = ix1 s :=
  funext fun a => Fin.ext (by match a with | ⟨0, _⟩ => rfl)

/-- The lengths under the mask's broadcasts are read at b. -/
theorem idx_len (b : Fin 32) (t : Fin 1024) (s : Fin 2048) :
    idx_main_v5 (idx_main_v7 (idx_main_v9 (idx_main_call0_v1 (ix3 b t s)))) = ix1 b :=
  funext fun a => Fin.ext (by match a with | ⟨0, _⟩ => rfl)

/-- The reduced axis put back: row (b, t) with coordinate k on the last axis is entry [b, t, k]. -/
theorem lift_d2 (hR : S32x1024x2048.Reduces [2] S32x1024) (b : Fin 32) (t : Fin 1024) (k : Fin 2048) :
    hR.lift (ix2 b t) k = ix3 b t k :=
  funext fun a => Fin.ext (by match a with | ⟨0, _⟩ => rfl | ⟨1, _⟩ => rfl | ⟨2, _⟩ => rfl)

/-- A row statistic broadcast back over the positions is read at (b, t). -/
theorem idx_row (b : Fin 32) (t : Fin 1024) (s : Fin 2048) : idx_main_v14 (idx_main_v15 (ix3 b t s)) = ix2 b t :=
  funext fun a => Fin.ext (by match a with | ⟨0, _⟩ => rfl | ⟨1, _⟩ => rfl)

/-- The same for the denominator's broadcast. -/
theorem idx_den (b : Fin 32) (t : Fin 1024) (s : Fin 2048) : idx_main_v19 (idx_main_v20 (ix3 b t s)) = ix2 b t :=
  funext fun a => Fin.ext (by match a with | ⟨0, _⟩ => rfl | ⟨1, _⟩ => rfl)

/-- The denominator's sum reads the exponentials at [b, t, k]. -/
theorem idx_v18 (b : Fin 32) (t : Fin 1024) (k : Fin 2048) : idx_main_v18 (ix2 b t) k = ix3 b t k :=
  funext fun a => Fin.ext (by match a with | ⟨0, _⟩ => rfl | ⟨1, _⟩ => rfl | ⟨2, _⟩ => rfl)

/-- The mix's contraction reads the weights at [b, t, k] … -/
theorem lidx_v22 (b : Fin 32) (t : Fin 1024) (h : Fin 1024) (k : Fin 2048) : lidx_main_v22 (ix3 b t h) k = ix3 b t k :=
  funext fun a => Fin.ext (by match a with | ⟨0, _⟩ => rfl | ⟨1, _⟩ => rfl | ⟨2, _⟩ => rfl)

/-- … and the transposed encoder states at [b, k, h]. -/
theorem ridx_v22 (b : Fin 32) (t : Fin 1024) (h : Fin 1024) (k : Fin 2048) : ridx_main_v22 (ix3 b t h) k = ix3 b k h :=
  funext fun a => Fin.ext (by match a with | ⟨0, _⟩ => rfl | ⟨1, _⟩ => rfl | ⟨2, _⟩ => rfl)

/-- The mixed rows' transpose reads entry [t, b, h] at [b, t, h]. -/
theorem idx_v23 (t : Fin 1024) (b : Fin 32) (h : Fin 1024) : idx_main_v23 (ix3 t b h) = ix3 b t h :=
  funext fun a => Fin.ext (by match a with | ⟨0, _⟩ => rfl | ⟨1, _⟩ => rfl | ⟨2, _⟩ => rfl)

/-- The projection's contraction reads the concatenated row at [t, b, k] … -/
theorem lidx_v25 (t : Fin 1024) (b : Fin 32) (h : Fin 1024) (k : Fin 2048) : lidx_main_v25 (ix3 t b h) k = ix3 t b k :=
  funext fun a => Fin.ext (by match a with | ⟨0, _⟩ => rfl | ⟨1, _⟩ => rfl | ⟨2, _⟩ => rfl)

/-- … and the weight at [h, k]. -/
theorem ridx_v25 (t : Fin 1024) (b : Fin 32) (h : Fin 1024) (k : Fin 2048) : ridx_main_v25 (ix3 t b h) k = ix2 h k :=
  funext fun a => Fin.ext (by match a with | ⟨0, _⟩ => rfl | ⟨1, _⟩ => rfl)

/-- The bias under its broadcasts is read at h. -/
theorem idx_bias (t : Fin 1024) (b : Fin 32) (h : Fin 1024) : idx_main_v26 (idx_main_v27 (ix3 t b h)) = ix1 h :=
  funext fun a => Fin.ext (by match a with | ⟨0, _⟩ => rfl)

/-! ## The attention weights -/

section Weights

variable (ctx : (⟨S2048x32x1024, .f32⟩ : BufTy).Contents (Elt Ideal)) (len : (⟨S32, .i32⟩ : BufTy).Contents (Elt Ideal))
  (dhs : (⟨S1024x32x1024, .f32⟩ : BufTy).Contents (Elt Ideal))

/-- The scores, entry [b, t, s]: the inner product of query row (t, b) with encoder row (s, b). -/
theorem ref_scores (b : Fin 32) (t : Fin 1024) (s : Fin 2048) :
    val_main_v2 (F := Ideal) ctx dhs (ix3 b t s) = score (qrow dhs t b) (encRows ctx b) s := by
  rw [val_main_v2_apply]
  show _ = ∑ h : Fin 1024, dhs (ix3 t b h) * ctx (ix3 s b h)
  refine Finset.sum_congr rfl fun k _ => ?_
  rw [val_main_v1_apply, val_main_v0_apply, lidx_v2, ridx_v2, idx_v1, idx_v0]

/-- The masked scores, entry [b, t, s]: the score where s is below the batch entry's length, the fill elsewhere. -/
theorem ref_masked (b : Fin 32) (t : Fin 1024) (s : Fin 2048) :
    val_main_v10 (F := Ideal) ctx len dhs (ix3 b t s)
      = masked (len (ix1 b)) (score (qrow dhs t b) (encRows ctx b)) s := by
  show _ = Scalar.select (IntOp.cmpi .slt (BitVec.ofNat 32 ((ix1 s) 0).val) (len (ix1 b)))
    (score (qrow dhs t b) (encRows ctx b) s) (Ideal.ofBits .f32 0xF149F2CA#32)
  rw [val_main_v10_apply, ref_scores, val_main_call0_v1_apply, val_main_v9_apply, val_main_v8_apply, val_main_v6_apply,
    val_main_v4_apply, val_main_v3_apply, val_main_v7_apply, val_main_v5_apply, val_main_call0_v2_apply,
    val_main_call0_v0_apply, val_main_cst_apply, idx_iota, idx_len, Ideal.ofBits_def]

/-- The row maximum, entry [b, t]: the maximum of the masked row folded from −∞ (the reference takes the maximum
    against −∞ once more, which changes nothing). -/
theorem ref_rowMax (b : Fin 32) (t : Fin 1024) :
    val_main_v13 (F := Ideal) ctx len dhs (ix2 b t)
      = rowMax (masked (len (ix1 b)) (score (qrow dhs t b) (encRows ctx b))) := by
  have hR : S32x1024x2048.Reduces [2] S32x1024 := by decide
  have hx : (val_main_v10 (F := Ideal) ctx len dhs ∘ hR.lift (ix2 b t))
      = masked (len (ix1 b)) (score (qrow dhs t b) (encRows ctx b)) := funext fun k =>
    (congrArg (val_main_v10 (F := Ideal) ctx len dhs) (lift_d2 hR b t k)).trans (ref_masked ctx len dhs b t k)
  rw [val_main_v13_apply, val_main_v12_apply, val_main_cst_1_apply]
  unfold val_main_v11
  rw [Host.reduce_eq_fold_single (FloatOps.maximumf (F := Ideal) (φ := .f32)) _ _ _ hR, val_main_cst_0_apply, hx]
  exact max_fold_self _ _

/-- The exponentials, entry [b, t, s]. -/
theorem ref_exp (b : Fin 32) (t : Fin 1024) (s : Fin 2048) :
    val_main_v17 (F := Ideal) ctx len dhs (ix3 b t s)
      = Ideal.exp (masked (len (ix1 b)) (score (qrow dhs t b) (encRows ctx b)) s
          - rowMax (masked (len (ix1 b)) (score (qrow dhs t b) (encRows ctx b)))) := by
  rw [val_main_v17_apply, val_main_v16_apply, val_main_v15_apply, val_main_v14_apply, ref_masked, idx_row, ref_rowMax,
    Ideal.hostUnary_exp_def, Ideal.subf_def]

/-- The denominator, entry [b, t]: the sum of the row's exponentials (the reference adds it to zero). -/
theorem ref_denominator (b : Fin 32) (t : Fin 1024) :
    val_main_v18 (F := Ideal) ctx len dhs (ix2 b t)
      = ∑ k : Fin 2048, Ideal.exp (masked (len (ix1 b)) (score (qrow dhs t b) (encRows ctx b)) k
          - rowMax (masked (len (ix1 b)) (score (qrow dhs t b) (encRows ctx b)))) := by
  rw [val_main_v18_apply, val_main_cst_2_apply, Ideal.ofBits_def, Ideal.ofBits_zero_f32, zero_add]
  refine Finset.sum_congr rfl fun k _ => ?_
  rw [idx_v18, ref_exp]

/-- The reference's attention weights, entry [b, t, s]. -/
theorem ref_weights (b : Fin 32) (t : Fin 1024) (s : Fin 2048) :
    val_main_v21 (F := Ideal) ctx len dhs (ix3 b t s) = attnAt ctx len dhs b t s := by
  show _ = Ideal.div (Ideal.exp (masked (len (ix1 b)) (score (qrow dhs t b) (encRows ctx b)) s
      - rowMax (masked (len (ix1 b)) (score (qrow dhs t b) (encRows ctx b)))))
    (∑ k : Fin 2048, Ideal.exp (masked (len (ix1 b)) (score (qrow dhs t b) (encRows ctx b)) k
      - rowMax (masked (len (ix1 b)) (score (qrow dhs t b) (encRows ctx b)))))
  rw [val_main_v21_apply, val_main_v20_apply, val_main_v19_apply, ref_exp, idx_den, ref_denominator, Ideal.hostDivf_def]

end Weights

/-! ## The projected states -/

section States

variable (ctx : (⟨S2048x32x1024, .f32⟩ : BufTy).Contents (Elt Ideal)) (len : (⟨S32, .i32⟩ : BufTy).Contents (Elt Ideal))
  (dhs : (⟨S1024x32x1024, .f32⟩ : BufTy).Contents (Elt Ideal))

/-- The mixed rows, entry [b, t, h]: the encoder rows of batch entry b weighted by the attention weights of (t, b). -/
theorem ref_mix (b : Fin 32) (t : Fin 1024) (h : Fin 1024) :
    val_main_v22 (F := Ideal) ctx len dhs (ix3 b t h) = mix (attnAt ctx len dhs b t) (encRows ctx b) h := by
  rw [val_main_v22_apply]
  show _ = ∑ s : Fin 2048, attnAt ctx len dhs b t s * ctx (ix3 s b h)
  refine Finset.sum_congr rfl fun k _ => ?_
  rw [lidx_v22, ridx_v22, ref_weights, val_main_v0_apply, idx_v0]

/-- The mixed rows in time-major order, entry [t, b, h]. -/
theorem ref_mixT (t : Fin 1024) (b : Fin 32) (h : Fin 1024) :
    val_main_v23 (F := Ideal) ctx len dhs (ix3 t b h) = mix (attnAt ctx len dhs b t) (encRows ctx b) h := by
  rw [val_main_v23_apply, idx_v23, ref_mix]

/-- The concatenated row's left half, entry [t, b, f] for f below 1024: the mixed row. -/
theorem ref_concat_lo (t : Fin 1024) (b : Fin 32) (f : Fin 1024) :
    val_main_v24 (F := Ideal) ctx len dhs (ix3 t b (lo f)) = mix (attnAt ctx len dhs b t) (encRows ctx b) f := by
  unfold val_main_v24
  refine (concatenate_pair_apply_left (t := S1024x32x2048) (s₁ := S1024x32x1024) (s₂ := S1024x32x1024) 2 _ _ _
    (ix3 t b (lo f)) rfl (ix3 t b f) ?_).trans (ref_mixT ctx len dhs t b f)
  intro a
  match a with
  | ⟨0, _⟩ => rfl
  | ⟨1, _⟩ => rfl
  | ⟨2, _⟩ => rfl

/-- The concatenated row's right half, entry [t, b, 1024 + f]: the query row. -/
theorem ref_concat_hi (t : Fin 1024) (b : Fin 32) (f : Fin 1024) :
    val_main_v24 (F := Ideal) ctx len dhs (ix3 t b (hi f)) = dhs (ix3 t b f) := by
  unfold val_main_v24
  refine concatenate_pair_apply_right (t := S1024x32x2048) (s₁ := S1024x32x1024) (s₂ := S1024x32x1024) 2 _ _ _
    (ix3 t b (hi f)) rfl rfl (ix3 t b f) ?_ ?_
  · intro a
    match a with
    | ⟨0, _⟩ => exact fun _ => rfl
    | ⟨1, _⟩ => exact fun _ => rfl
    | ⟨2, _⟩ => exact fun hne => (hne rfl).elim
  · show f.val + 1024 = 1024 + f.val
    omega

/-- The projection's contraction, entry [t, b, h]: the 2048 columns' sum as the mixed half's plus the query half's. -/
theorem ref_contract (W : (⟨S1024x2048, .f32⟩ : BufTy).Contents (Elt Ideal)) (t : Fin 1024) (b : Fin 32) (h : Fin 1024) :
    val_main_v25 (F := Ideal) ctx len dhs W (ix3 t b h)
      = (∑ f : Fin 1024, mix (attnAt ctx len dhs b t) (encRows ctx b) f * W (ix2 h (lo f)))
        + ∑ f : Fin 1024, dhs (ix3 t b f) * W (ix2 h (hi f)) := by
  rw [val_main_v25_apply]
  refine (sum_halves _).trans ?_
  refine congrArg₂ (fun x y : EReal => x + y) (Finset.sum_congr rfl fun f _ => ?_) (Finset.sum_congr rfl fun f _ => ?_)
  · rw [lidx_v25, ridx_v25, ref_concat_lo]
  · rw [lidx_v25, ridx_v25, ref_concat_hi]

/-- The reference's states, entry [t, b, h]. -/
theorem ref_states (W : (⟨S1024x2048, .f32⟩ : BufTy).Contents (Elt Ideal)) (β : (⟨S1024, .f32⟩ : BufTy).Contents (Elt Ideal))
    (t : Fin 1024) (b : Fin 32) (h : Fin 1024) :
    val_main_v29 (F := Ideal) ctx len dhs W β (ix3 t b h) = stateAt ctx len dhs W β t b h := by
  show _ = Ideal.tanh (((∑ f : Fin 1024, mix (attnAt ctx len dhs b t) (encRows ctx b) f * W (ix2 h (lo f)))
      + ∑ f : Fin 1024, dhs (ix3 t b f) * W (ix2 h (hi f))) + β (ix1 h))
  rw [val_main_v29_apply, val_main_v28_apply, ref_contract, val_main_v27_apply, val_main_v26_apply, idx_bias,
    Ideal.hostUnary_tanh_def, Ideal.addf_def]

end States

end Cert.RefRows

end
-- ==== Proof.KerBlocks.lean ====
/-
  What the kernel's windows hold at a grid point, as entries of the argument arrays.

  The host lines before the region lay the time-major encoder states and queries out batch-major (a transpose of the
  first two axes; the change of float format is the identity on the extended reals) and cut the projection's weight into
  its left and right halves. Grid point `t` of the 32 × 2 grid is batch entry `t / 2` and query tile `t % 2`: its encoder
  window is the entry's 2048 rows, its query window rows `512 (t % 2) … + 511` of the entry, the weight halves and the bias
  whole; so each window's block, read at an index, is an entry of an argument array.
-/
import proofs.«403672_j15187004358886_2_alg».proof.Proof.Gen.KernelIdeal.Frame
import proofs.«403672_j15187004358886_2_alg».proof.Proof.Attention
import Idealize.ShloMosaic.Lib.Pipeline.Value
import Idealize.ShloMosaic.Lib.ValueLayout
import Idealize.ShloMosaic.Lib.ValueIdx
import Idealize.ShloMosaic.Lib.StableHlo.Run

set_option maxRecDepth 16384

noncomputable section

namespace Cert.KerBlocks

open Cert.KernelIdeal Cert.KernelIdeal.Gen Cert.Attention Idealize.ShloMosaic Idealize.ShloMosaic.TcCoe
open Idealize.ShloMosaic.ValueIdx Idealize.SL.Sem

variable (m : (ℓ : Loc nD τ sig) → Buf (Elt Ideal) ℓ)

/-! ## The argument arrays -/

/-- The time-major encoder states `[2048, 32, 1024]`. -/
abbrev ctxA (c : Dev nD) : S2048x32x1024.Idx → EReal := m ((c : Thread nD τ).loc main_arg0)
/-- The batch entries' lengths `[32]`. -/
abbrev lenA (c : Dev nD) : S32.Idx → BitVec 32 := m ((c : Thread nD τ).loc main_arg1)
/-- The time-major queries `[1024, 32, 1024]`. -/
abbrev dhsA (c : Dev nD) : S1024x32x1024.Idx → EReal := m ((c : Thread nD τ).loc main_arg2)
/-- The projection's weight `[1024, 2048]`. -/
abbrev wA (c : Dev nD) : S1024x2048.Idx → EReal := m ((c : Thread nD τ).loc main_arg3)
/-- The projection's bias `[1024]`. -/
abbrev βA (c : Dev nD) : S1024.Idx → EReal := m ((c : Thread nD τ).loc main_arg4)

/-! ## The arrays the region finds -/

theorem V_v1 (c : Dev nD) : V m c main_v1
    = (truncf (F := Ideal) .bf16 (transpose S32x2048x1024 [1, 0, 2] (ctxA m c) transposes_S2048x32x1024_S32x2048x1024_1_0_2)
        bitsLt_bf16_f32 : FVec Ideal S32x2048x1024 .bf16) := by
  show StableHlo.after hostOps0 (fun b => m (c, b)) (Proc.devRef .tc main_v1) = _
  after_results

theorem V_v3 (c : Dev nD) : V m c main_v3
    = (truncf (F := Ideal) .bf16 (transpose S32x1024x1024 [1, 0, 2] (dhsA m c) transposes_S1024x32x1024_S32x1024x1024_1_0_2)
        bitsLt_bf16_f32 : FVec Ideal S32x1024x1024 .bf16) := by
  show StableHlo.after hostOps0 (fun b => m (c, b)) (Proc.devRef .tc main_v3) = _
  after_results

theorem V_v5 (c : Dev nD) : V m c main_v5
    = (truncf (F := Ideal) .bf16 (extractStridedSlice S1024x1024 ![0, 0] (wA m c) slices_S1024x2048_S1024x1024_0_0)
        bitsLt_bf16_f32 : FVec Ideal S1024x1024 .bf16) := by
  show StableHlo.after hostOps0 (fun b => m (c, b)) (Proc.devRef .tc main_v5) = _
  after_results

theorem V_v7 (c : Dev nD) : V m c main_v7
    = (truncf (F := Ideal) .bf16 (extractStridedSlice S1024x1024 ![0, 1024] (wA m c) slices_S1024x2048_S1024x1024_0_1024)
        bitsLt_bf16_f32 : FVec Ideal S1024x1024 .bf16) := by
  show StableHlo.after hostOps0 (fun b => m (c, b)) (Proc.devRef .tc main_v7) = _
  after_results

/-- The batch-major encoder states: entry `[b, s, h]` is the time-major `[s, b, h]`. -/
theorem V_v1_apply (c : Dev nD) (b : Fin 32) (s : Fin 2048) (h : Fin 1024) :
    (V m c main_v1 : S32x2048x1024.Idx → EReal) (ix3 b s h) = ctxA m c (ix3 s b h) :=
  (congrFun (V_v1 m c) (ix3 b s h)).trans
    (transpose_apply [1, 0, 2] (ctxA m c) transposes_S2048x32x1024_S32x2048x1024_1_0_2 (ix3 b s h) (ix3 s b h)
      (fun a => match a with | ⟨0, _⟩ => rfl | ⟨1, _⟩ => rfl | ⟨2, _⟩ => rfl))

/-- The batch-major queries: entry `[b, t, h]` is the time-major `[t, b, h]`. -/
theorem V_v3_apply (c : Dev nD) (b : Fin 32) (t : Fin 1024) (h : Fin 1024) :
    (V m c main_v3 : S32x1024x1024.Idx → EReal) (ix3 b t h) = dhsA m c (ix3 t b h) :=
  (congrFun (V_v3 m c) (ix3 b t h)).trans
    (transpose_apply [1, 0, 2] (dhsA m c) transposes_S1024x32x1024_S32x1024x1024_1_0_2 (ix3 b t h) (ix3 t b h)
      (fun a => match a with | ⟨0, _⟩ => rfl | ⟨1, _⟩ => rfl | ⟨2, _⟩ => rfl))

/-- The weight's left half: entry `[h, f]` is the weight's `[h, f]`. -/
theorem V_v5_apply (c : Dev nD) (h f : Fin 1024) :
    (V m c main_v5 : S1024x1024.Idx → EReal) (ix2 h f) = wA m c (ix2 h (lo f)) :=
  (congrFun (V_v5 m c) (ix2 h f)).trans
    (slice2_axis1_apply 0 (wA m c) slices_S1024x2048_S1024x1024_0_0 h f (lo f) (Nat.zero_add _).symm)

/-- The weight's right half: entry `[h, f]` is the weight's `[h, 1024 + f]`. -/
theorem V_v7_apply (c : Dev nD) (h f : Fin 1024) :
    (V m c main_v7 : S1024x1024.Idx → EReal) (ix2 h f) = wA m c (ix2 h (hi f)) :=
  (congrFun (V_v7 m c) (ix2 h f)).trans
    (slice2_axis1_apply 1024 (wA m c) slices_S1024x2048_S1024x1024_0_1024 h f (hi f) rfl)

/-! ## The block indices over the grid -/

/-- The printed index maps, decided over the 64 grid points: the batch entry is `t / 2`, the query tile `t % 2`. -/
theorem idx_facts (a : (pcfg0 (F := Ideal)).Adm) : ∀ t : Fin (cfg0 a).N,
    ((cfg0 a).win 0).index t (0 : Fin 3) = t.val / 2 ∧ ((cfg0 a).win 0).index t (1 : Fin 3) = 0 ∧ ((cfg0 a).win 0).index t (2 : Fin 3) = 0
    ∧ ((cfg0 a).win 1).index t (0 : Fin 3) = t.val / 2 ∧ ((cfg0 a).win 1).index t (1 : Fin 3) = t.val % 2 ∧ ((cfg0 a).win 1).index t (2 : Fin 3) = 0
    ∧ ((cfg0 a).win 2).index t (0 : Fin 2) = 0 ∧ ((cfg0 a).win 2).index t (1 : Fin 2) = 0
    ∧ ((cfg0 a).win 3).index t (0 : Fin 2) = 0 ∧ ((cfg0 a).win 3).index t (1 : Fin 2) = 0
    ∧ ((cfg0 a).win 4).index t (0 : Fin 1) = 0
    ∧ ((cfg0 a).win 5).index t (0 : Fin 3) = t.val / 2 ∧ ((cfg0 a).win 5).index t (1 : Fin 3) = t.val % 2 ∧ ((cfg0 a).win 5).index t (2 : Fin 3) = 0
    ∧ ((cfg0 a).win 6).index t (0 : Fin 3) = t.val / 2 ∧ ((cfg0 a).win 6).index t (1 : Fin 3) = t.val % 2 ∧ ((cfg0 a).win 6).index t (2 : Fin 3) = 0 :=
  (by decide +kernel : ∀ t : Fin grid0.N,
    cc0_transform_0 (grid0.coords t) (0 : Fin 3) = t.val / 2 ∧ cc0_transform_0 (grid0.coords t) (1 : Fin 3) = 0 ∧ cc0_transform_0 (grid0.coords t) (2 : Fin 3) = 0
    ∧ cc0_transform_1 (grid0.coords t) (0 : Fin 3) = t.val / 2 ∧ cc0_transform_1 (grid0.coords t) (1 : Fin 3) = t.val % 2 ∧ cc0_transform_1 (grid0.coords t) (2 : Fin 3) = 0
    ∧ cc0_transform_2 (grid0.coords t) (0 : Fin 2) = 0 ∧ cc0_transform_2 (grid0.coords t) (1 : Fin 2) = 0
    ∧ cc0_transform_3 (grid0.coords t) (0 : Fin 2) = 0 ∧ cc0_transform_3 (grid0.coords t) (1 : Fin 2) = 0
    ∧ cc0_transform_4 (grid0.coords t) (0 : Fin 1) = 0
    ∧ cc0_transform_5 (grid0.coords t) (0 : Fin 3) = t.val / 2 ∧ cc0_transform_5 (grid0.coords t) (1 : Fin 3) = t.val % 2 ∧ cc0_transform_5 (grid0.coords t) (2 : Fin 3) = 0
    ∧ cc0_transform_6 (grid0.coords t) (0 : Fin 3) = t.val / 2 ∧ cc0_transform_6 (grid0.coords t) (1 : Fin 3) = t.val % 2 ∧ cc0_transform_6 (grid0.coords t) (2 : Fin 3) = 0)

/-- The grid coordinate the body reads the length word at is the batch entry. -/
theorem coord0_facts : ∀ t : Fin grid0.N, (k0_off1 (grid0.coords t)) (0 : Fin 1) = t.val / 2 :=
  (by decide +kernel : ∀ t : Fin grid0.N, (k0_off1 (grid0.coords t)) (0 : Fin 1) = t.val / 2)

/-! ## The windows' blocks at a point, by their literal types -/

variable (hO : Ok m)

/-- The encoder window's block at point `t`. -/
abbrev encBlk (c : Dev nD) (t : Fin (cfgM m hO).N) : Vec Ideal S1x2048x1024 .bf16 := iblk m hO c 0 t
/-- The query window's block. -/
abbrev qBlk (c : Dev nD) (t : Fin (cfgM m hO).N) : Vec Ideal S1x512x1024 .bf16 := iblk m hO c 1 t
/-- The weight's left half. -/
abbrev wlBlk (c : Dev nD) (t : Fin (cfgM m hO).N) : Vec Ideal S1024x1024 .bf16 := iblk m hO c 2 t
/-- The weight's right half. -/
abbrev wrBlk (c : Dev nD) (t : Fin (cfgM m hO).N) : Vec Ideal S1024x1024 .bf16 := iblk m hO c 3 t
/-- The bias. -/
abbrev bBlk (c : Dev nD) (t : Fin (cfgM m hO).N) : Vec Ideal S1024 .f32 := iblk m hO c 4 t

/-- The encoder block at point `t` holds the rows of batch entry `b = t / 2`. -/
theorem encBlk_apply (c : Dev nD) (t : Fin (cfgM m hO).N) (b : Fin 32) (hb : b.val = t.val / 2) (u : Fin 1) (s : Fin 2048) (h : Fin 1024) :
    encBlk m hO c t (ix3 u s h) = ctxA m c (ix3 s b h) := by
  obtain ⟨e0, e1, e2, -⟩ := idx_facts (adm m hO) t
  have hu : u.val = 0 := by omega
  show (V m c main_v1 : S32x2048x1024.Idx → EReal) ((((cfgM m hO).win 0).blk t).view.emb (ix3 u s h)) = _
  have e : (((cfgM m hO).win 0).blk t).view.emb (ix3 u s h) = ix3 b s h := by
    funext a; apply Fin.ext
    match a with
    | ⟨0, _⟩ => show ((cfg0 (adm m hO)).win 0).index t (0 : Fin 3) * 1 + 1 * u.val = b.val; rw [e0, hu]; omega
    | ⟨1, _⟩ => show ((cfg0 (adm m hO)).win 0).index t (1 : Fin 3) * 2048 + 1 * s.val = s.val; rw [e1]; omega
    | ⟨2, _⟩ => show ((cfg0 (adm m hO)).win 0).index t (2 : Fin 3) * 1024 + 1 * h.val = h.val; rw [e2]; omega
  rw [e, V_v1_apply]

/-- The query block at point `t` holds rows `512 (t % 2) + r` of batch entry `b = t / 2`. -/
theorem qBlk_apply (c : Dev nD) (t : Fin (cfgM m hO).N) (b : Fin 32) (hb : b.val = t.val / 2) (q : Fin 1024) (r : Fin 512)
    (hq : q.val = t.val % 2 * 512 + r.val) (u : Fin 1) (h : Fin 1024) :
    qBlk m hO c t (ix3 u r h) = dhsA m c (ix3 q b h) := by
  obtain ⟨-, -, -, e0, e1, e2, -⟩ := idx_facts (adm m hO) t
  have hu : u.val = 0 := by omega
  show (V m c main_v3 : S32x1024x1024.Idx → EReal) ((((cfgM m hO).win 1).blk t).view.emb (ix3 u r h)) = _
  have e : (((cfgM m hO).win 1).blk t).view.emb (ix3 u r h) = ix3 b q h := by
    funext a; apply Fin.ext
    match a with
    | ⟨0, _⟩ => show ((cfg0 (adm m hO)).win 1).index t (0 : Fin 3) * 1 + 1 * u.val = b.val; rw [e0, hu]; omega
    | ⟨1, _⟩ => show ((cfg0 (adm m hO)).win 1).index t (1 : Fin 3) * 512 + 1 * r.val = q.val; rw [e1, hq]; omega
    | ⟨2, _⟩ => show ((cfg0 (adm m hO)).win 1).index t (2 : Fin 3) * 1024 + 1 * h.val = h.val; rw [e2]; omega
  rw [e, V_v3_apply]

/-- The weight's left half, whole at every point. -/
theorem wlBlk_apply (c : Dev nD) (t : Fin (cfgM m hO).N) (h f : Fin 1024) :
    wlBlk m hO c t (ix2 h f) = wA m c (ix2 h (lo f)) := by
  obtain ⟨-, -, -, -, -, -, e0, e1, -⟩ := idx_facts (adm m hO) t
  show (V m c main_v5 : S1024x1024.Idx → EReal) ((((cfgM m hO).win 2).blk t).view.emb (ix2 h f)) = _
  have e : (((cfgM m hO).win 2).blk t).view.emb (ix2 h f) = ix2 h f := by
    funext a; apply Fin.ext
    match a with
    | ⟨0, _⟩ => show ((cfg0 (adm m hO)).win 2).index t (0 : Fin 2) * 1024 + 1 * h.val = h.val; rw [e0]; omega
    | ⟨1, _⟩ => show ((cfg0 (adm m hO)).win 2).index t (1 : Fin 2) * 1024 + 1 * f.val = f.val; rw [e1]; omega
  rw [e, V_v5_apply]

/-- The weight's right half, whole at every point. -/
theorem wrBlk_apply (c : Dev nD) (t : Fin (cfgM m hO).N) (h f : Fin 1024) :
    wrBlk m hO c t (ix2 h f) = wA m c (ix2 h (hi f)) := by
  obtain ⟨-, -, -, -, -, -, -, -, e0, e1, -⟩ := idx_facts (adm m hO) t
  show (V m c main_v7 : S1024x1024.Idx → EReal) ((((cfgM m hO).win 3).blk t).view.emb (ix2 h f)) = _
  have e : (((cfgM m hO).win 3).blk t).view.emb (ix2 h f) = ix2 h f := by
    funext a; apply Fin.ext
    match a with
    | ⟨0, _⟩ => show ((cfg0 (adm m hO)).win 3).index t (0 : Fin 2) * 1024 + 1 * h.val = h.val; rw [e0]; omega
    | ⟨1, _⟩ => show ((cfg0 (adm m hO)).win 3).index t (1 : Fin 2) * 1024 + 1 * f.val = f.val; rw [e1]; omega
  rw [e, V_v7_apply]

/-- The bias, whole at every point. -/
theorem bBlk_apply (c : Dev nD) (t : Fin (cfgM m hO).N) (h : Fin 1024) :
    bBlk m hO c t (ix1 h) = βA m c (ix1 h) := by
  obtain ⟨-, -, -, -, -, -, -, -, -, -, e0, -⟩ := idx_facts (adm m hO) t
  show (V m c main_arg4 : S1024.Idx → EReal) ((((cfgM m hO).win 4).blk t).view.emb (ix1 h)) = _
  have e : (((cfgM m hO).win 4).blk t).view.emb (ix1 h) = ix1 h := by
    funext a; apply Fin.ext
    match a with
    | ⟨0, _⟩ => show ((cfg0 (adm m hO)).win 4).index t (0 : Fin 1) * 1024 + 1 * h.val = h.val; rw [e0]; omega
  rw [e, V_main_arg4]

end Cert.KerBlocks

end
-- ==== Proof.LibMatProd.lean ====
/-
  A plain matrix product on the extended reals as a sum over the shared axis.

  For the dimension numbers of an `A × K` by `K × B` product (`DotDims.plain A K B`: contract the left
  operand's axis 1 with the right operand's axis 0, no batch axes), a kernel's `tpu.matmul` into a zero
  accumulator and a host `dot_general` are, at entry `(a, b)`, the sum over `k : Fin K` of
  `lhs (a, k) * rhs (k, b)`. A printed record with these six lists is `DotDims.plain` by `rfl`.
-/
import Idealize.ShloMosaic.PureOps.Ideal.Laws
import Idealize.ShloMosaic.Lib.ValueIdx

noncomputable section

namespace Cert.LibMatProd

open Idealize.ShloMosaic Idealize.ShloMosaic.ValueIdx

variable (A K B : ℕ)

/-- The left operand's index at result index `i` and contraction index `q`: row `i 0` … -/
theorem lhs_axis0 (i : (⟨2, ![A, B]⟩ : Shape).Idx) (q : (DotDims.plain A K B).contr.Idx) :
    ((DotDims.plain A K B).lhsIdx i q 0).val = (i 0).val := by
  unfold DotDims.lhsIdx
  rw [dif_neg (show ¬(0 : Fin (⟨2, ![A, K]⟩ : Shape).rank) ∈ (DotDims.plain A K B).lhsBatch from List.not_mem_nil),
    dif_pos (show (0 : Fin (⟨2, ![A, K]⟩ : Shape).rank) ∈ (DotDims.plain A K B).lhsNonContracting from List.mem_singleton.2 rfl)]
  rfl
/-- … column `q`'s one coordinate. -/
theorem lhs_axis1 (i : (⟨2, ![A, B]⟩ : Shape).Idx) (q : (DotDims.plain A K B).contr.Idx) :
    ((DotDims.plain A K B).lhsIdx i q 1).val = (q ⟨0, Nat.one_pos⟩).val :=
  (DotDims.plain A K B).lhsIdx_val_of_single rfl i q
/-- The right operand's index: row `q`'s one coordinate … -/
theorem rhs_axis0 (i : (⟨2, ![A, B]⟩ : Shape).Idx) (q : (DotDims.plain A K B).contr.Idx) :
    ((DotDims.plain A K B).rhsIdx i q 0).val = (q ⟨0, Nat.one_pos⟩).val :=
  (DotDims.plain A K B).rhsIdx_val_of_single rfl i q
/-- … column `i 1`. -/
theorem rhs_axis1 (i : (⟨2, ![A, B]⟩ : Shape).Idx) (q : (DotDims.plain A K B).contr.Idx) :
    ((DotDims.plain A K B).rhsIdx i q 1).val = (i 1).val := by
  unfold DotDims.rhsIdx
  rw [dif_neg (show ¬(1 : Fin (⟨2, ![K, B]⟩ : Shape).rank) ∈ (DotDims.plain A K B).rhsBatch from List.not_mem_nil),
    dif_pos (show (1 : Fin (⟨2, ![K, B]⟩ : Shape).rank) ∈ (DotDims.plain A K B).rhsNonContracting from List.mem_singleton.2 rfl)]
  rfl

/-- The sum over the contraction index of a plain product is the sum over `k : Fin K`. -/
theorem plain_sum (l : (⟨2, ![A, K]⟩ : Shape).Idx → EReal) (r : (⟨2, ![K, B]⟩ : Shape).Idx → EReal) (a : Fin A) (b : Fin B) :
    (∑ q : (DotDims.plain A K B).contr.Idx,
        l ((DotDims.plain A K B).lhsIdx (ix2 a b) q) * r ((DotDims.plain A K B).rhsIdx (ix2 a b) q))
      = ∑ k : Fin K, l (ix2 a k) * r (ix2 k b) := by
  rw [← Equiv.sum_comp (contrEquiv1 (DotDims.plain A K B) K rfl rfl).symm]
  refine Finset.sum_congr rfl fun k _ => ?_
  have hk := contrEquiv1_symm_val (DotDims.plain A K B) K rfl rfl k
  have el : (DotDims.plain A K B).lhsIdx (ix2 a b) ((contrEquiv1 (DotDims.plain A K B) K rfl rfl).symm k) = ix2 a k :=
    funext fun ax => Fin.ext (by
      match ax with
      | ⟨0, _⟩ => exact lhs_axis0 A K B _ _
      | ⟨1, _⟩ => exact (lhs_axis1 A K B _ _).trans hk)
  have er : (DotDims.plain A K B).rhsIdx (ix2 a b) ((contrEquiv1 (DotDims.plain A K B) K rfl rfl).symm k) = ix2 k b :=
    funext fun ax => Fin.ext (by
      match ax with
      | ⟨0, _⟩ => exact (rhs_axis0 A K B _ _).trans hk
      | ⟨1, _⟩ => exact rhs_axis1 A K B _ _)
  rw [el, er]

variable {A K B}

/-- A kernel's matrix product into a zero accumulator, at entry `(a, b)`. -/
theorem matmul_zero_apply {φ₁ φ₂ : FTy} (d : DotDims ⟨2, ![A, K]⟩ ⟨2, ![K, B]⟩ ⟨2, ![A, B]⟩) (hd : d = DotDims.plain A K B)
    (prec : Option ContractPrecision) (lhs : FVec Ideal ⟨2, ![A, K]⟩ φ₁) (rhs : FVec Ideal ⟨2, ![K, B]⟩ φ₂) (a : Fin A) (b : Fin B) :
    matmul d prec lhs rhs (constant ⟨2, ![A, B]⟩ .f32 0x00000000#32) (ix2 a b) = ∑ k : Fin K, lhs (ix2 a k) * rhs (ix2 k b) := by
  subst hd
  exact (Ideal.matmul_constant_zero_apply _ prec lhs rhs (ix2 a b)).trans (plain_sum A K B lhs rhs a b)

/-- A host `dot_general`, at entry `(a, b)`. -/
theorem dotGeneral_apply {φ₁ φ₂ : FTy} (d : DotDims ⟨2, ![A, K]⟩ ⟨2, ![K, B]⟩ ⟨2, ![A, B]⟩) (hd : d = DotDims.plain A K B)
    (prec : Option ContractPrecision) (lhs : FVec Ideal ⟨2, ![A, K]⟩ φ₁) (rhs : FVec Ideal ⟨2, ![K, B]⟩ φ₂) (a : Fin A) (b : Fin B) :
    Host.dotGeneral d prec lhs rhs (ix2 a b) = ∑ k : Fin K, lhs (ix2 a k) * rhs (ix2 k b) := by
  subst hd
  exact (Ideal.dotGeneral_apply _ prec .single lhs rhs (ix2 a b)).trans (plain_sum A K B lhs rhs a b)

end Cert.LibMatProd

end
-- ==== Proof.LibMatProdNT.lean ====
/-
  A matrix product with the right operand's rows contracted, on the extended reals, as a sum over the shared axis.

  For the dimension numbers of an `A × K` by `B × K` product (`DotDims.transposedRhs A K B`: contract axis 1 of
  both operands, no batch axes), a kernel's `tpu.matmul` into a zero accumulator and a host `dot_general` are, at
  entry `(a, b)`, the sum over `k : Fin K` of `lhs (a, k) * rhs (b, k)`. A printed record with these six lists is
  `DotDims.transposedRhs` by `rfl`.
-/
import Idealize.ShloMosaic.PureOps.Ideal.Laws
import Idealize.ShloMosaic.Lib.ValueIdx

noncomputable section

namespace Cert.LibMatProdNT

open Idealize.ShloMosaic Idealize.ShloMosaic.ValueIdx

variable (A K B : ℕ)

/-- The left operand's index at result index `i` and contraction index `q`: row `i 0` … -/
theorem lhs_axis0 (i : (⟨2, ![A, B]⟩ : Shape).Idx) (q : (DotDims.transposedRhs A K B).contr.Idx) :
    ((DotDims.transposedRhs A K B).lhsIdx i q 0).val = (i 0).val := by
  unfold DotDims.lhsIdx
  rw [dif_neg (show ¬(0 : Fin (⟨2, ![A, K]⟩ : Shape).rank) ∈ (DotDims.transposedRhs A K B).lhsBatch from List.not_mem_nil),
    dif_pos (show (0 : Fin (⟨2, ![A, K]⟩ : Shape).rank) ∈ (DotDims.transposedRhs A K B).lhsNonContracting from List.mem_singleton.2 rfl)]
  rfl
/-- … column `q`'s one coordinate. -/
theorem lhs_axis1 (i : (⟨2, ![A, B]⟩ : Shape).Idx) (q : (DotDims.transposedRhs A K B).contr.Idx) :
    ((DotDims.transposedRhs A K B).lhsIdx i q 1).val = (q ⟨0, Nat.one_pos⟩).val :=
  (DotDims.transposedRhs A K B).lhsIdx_val_of_single rfl i q
/-- The right operand's index: row `i 1` … -/
theorem rhs_axis0 (i : (⟨2, ![A, B]⟩ : Shape).Idx) (q : (DotDims.transposedRhs A K B).contr.Idx) :
    ((DotDims.transposedRhs A K B).rhsIdx i q 0).val = (i 1).val := by
  unfold DotDims.rhsIdx
  rw [dif_neg (show ¬(0 : Fin (⟨2, ![B, K]⟩ : Shape).rank) ∈ (DotDims.transposedRhs A K B).rhsBatch from List.not_mem_nil),
    dif_pos (show (0 : Fin (⟨2, ![B, K]⟩ : Shape).rank) ∈ (DotDims.transposedRhs A K B).rhsNonContracting from List.mem_singleton.2 rfl)]
  rfl
/-- … column `q`'s one coordinate. -/
theorem rhs_axis1 (i : (⟨2, ![A, B]⟩ : Shape).Idx) (q : (DotDims.transposedRhs A K B).contr.Idx) :
    ((DotDims.transposedRhs A K B).rhsIdx i q 1).val = (q ⟨0, Nat.one_pos⟩).val :=
  (DotDims.transposedRhs A K B).rhsIdx_val_of_single rfl i q

/-- The sum over the contraction index is the sum over `k : Fin K` of row `a` of the left operand against row `b` of the
    right one. -/
theorem rows_sum (l : (⟨2, ![A, K]⟩ : Shape).Idx → EReal) (r : (⟨2, ![B, K]⟩ : Shape).Idx → EReal) (a : Fin A) (b : Fin B) :
    (∑ q : (DotDims.transposedRhs A K B).contr.Idx,
        l ((DotDims.transposedRhs A K B).lhsIdx (ix2 a b) q) * r ((DotDims.transposedRhs A K B).rhsIdx (ix2 a b) q))
      = ∑ k : Fin K, l (ix2 a k) * r (ix2 b k) := by
  rw [← Equiv.sum_comp (contrEquiv1 (DotDims.transposedRhs A K B) K rfl rfl).symm]
  refine Finset.sum_congr rfl fun k _ => ?_
  have hk := contrEquiv1_symm_val (DotDims.transposedRhs A K B) K rfl rfl k
  have el : (DotDims.transposedRhs A K B).lhsIdx (ix2 a b) ((contrEquiv1 (DotDims.transposedRhs A K B) K rfl rfl).symm k) = ix2 a k :=
    funext fun ax => Fin.ext (by
      match ax with
      | ⟨0, _⟩ => exact lhs_axis0 A K B _ _
      | ⟨1, _⟩ => exact (lhs_axis1 A K B _ _).trans hk)
  have er : (DotDims.transposedRhs A K B).rhsIdx (ix2 a b) ((contrEquiv1 (DotDims.transposedRhs A K B) K rfl rfl).symm k) = ix2 b k :=
    funext fun ax => Fin.ext (by
      match ax with
      | ⟨0, _⟩ => exact rhs_axis0 A K B _ _
      | ⟨1, _⟩ => exact (rhs_axis1 A K B _ _).trans hk)
  rw [el, er]

variable {A K B}

/-- A kernel's matrix product into a zero accumulator, at entry `(a, b)`. -/
theorem matmul_zero_apply {φ₁ φ₂ : FTy} (d : DotDims ⟨2, ![A, K]⟩ ⟨2, ![B, K]⟩ ⟨2, ![A, B]⟩) (hd : d = DotDims.transposedRhs A K B)
    (prec : Option ContractPrecision) (lhs : FVec Ideal ⟨2, ![A, K]⟩ φ₁) (rhs : FVec Ideal ⟨2, ![B, K]⟩ φ₂) (a : Fin A) (b : Fin B) :
    matmul d prec lhs rhs (constant ⟨2, ![A, B]⟩ .f32 0x00000000#32) (ix2 a b) = ∑ k : Fin K, lhs (ix2 a k) * rhs (ix2 b k) := by
  subst hd
  exact (Ideal.matmul_constant_zero_apply _ prec lhs rhs (ix2 a b)).trans (rows_sum A K B lhs rhs a b)

/-- A host `dot_general`, at entry `(a, b)`. -/
theorem dotGeneral_apply {φ₁ φ₂ : FTy} (d : DotDims ⟨2, ![A, K]⟩ ⟨2, ![B, K]⟩ ⟨2, ![A, B]⟩) (hd : d = DotDims.transposedRhs A K B)
    (prec : Option ContractPrecision) (lhs : FVec Ideal ⟨2, ![A, K]⟩ φ₁) (rhs : FVec Ideal ⟨2, ![B, K]⟩ φ₂) (a : Fin A) (b : Fin B) :
    Host.dotGeneral d prec lhs rhs (ix2 a b) = ∑ k : Fin K, lhs (ix2 a k) * rhs (ix2 b k) := by
  subst hd
  exact (Ideal.dotGeneral_apply _ prec .single lhs rhs (ix2 a b)).trans (rows_sum A K B lhs rhs a b)

end Cert.LibMatProdNT

end
-- ==== Proof.LibColumn.lean ====
/-
  A column kept by a row reduction, read at an index: an `[a]` vector viewed as the column `[a, 1]`, and a column
  `[a, 1]` spread over `b` columns. (What `keepdims` leaves of a row maximum or a row sum before it meets the rows again.)
-/
import Idealize.ShloMosaic.Lib.Pipeline.Value
import Idealize.ShloMosaic.Lib.ValueIdx

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibColumn
-- ==== Proof.KerRows.lean ====
/-
  The kernel body's arithmetic at the extended reals, one query row at a time.

  At a grid point the body holds one batch entry's encoder rows `x0 : [1, 2048, 1024]`, a tile of 512 query rows
  `x1 : [1, 512, 1024]`, the two halves `x2, x3 : [1024, 1024]` of the projection's weight, the bias `x4 : [1024]` and
  the entry's length word. Row `r` of the weights tile it stores is the softmax of the masked scores of query row `r`
  (`Attention.weights`), and row `r` of the states tile is the projection of that row's mix of the encoder rows
  (`Attention.project2`): each matrix product read as a sum over its shared axis, each row reduction as a fold or a sum
  over the row, each layout change as a renaming of the index.
-/
import proofs.«403672_j15187004358886_2_alg».proof.Proof.Gen.KernelIdeal.Skeleton
import proofs.«403672_j15187004358886_2_alg».proof.Proof.Attention
import proofs.«403672_j15187004358886_2_alg».proof.Proof.LibMatProd
import proofs.«403672_j15187004358886_2_alg».proof.Proof.LibMatProdNT
import proofs.«403672_j15187004358886_2_alg».proof.Proof.LibColumn
import Idealize.ShloMosaic.Lib.Pipeline.Value
import Idealize.ShloMosaic.Lib.ValueLayout
import Idealize.ShloMosaic.Lib.ValueIdx
import Idealize.ShloMosaic.PureOps.Ideal.Laws

noncomputable section

open scoped BigOperators

namespace Cert.KerRows

open Cert.KernelIdeal Cert.KernelIdeal.Gen Cert.Attention Idealize.ShloMosaic Idealize.ShloMosaic.ValueIdx

/-! ## The operands' rows -/

/-- Query row `r` of the tile. -/
abbrev qOf (x1 : Vec Ideal S1x512x1024 .bf16) (r : Fin 512) : Fin 1024 → EReal := fun h => x1 (ix3 (0 : Fin 1) r h)
/-- The encoder rows of the batch entry. -/
abbrev encOf (x0 : Vec Ideal S1x2048x1024 .bf16) : Fin 2048 → Fin 1024 → EReal := fun s h => x0 (ix3 (0 : Fin 1) s h)

/-- The query tile with its unit axis dropped reads row `r`, column `h` of the tile. -/
theorem pay2_apply (x1 : Vec Ideal S1x512x1024 .bf16) (r : Fin 512) (h : Fin 1024) :
    k0_pay2 (F := Ideal) x1 (ix2 r h) = x1 (ix3 (0 : Fin 1) r h) := by
  unfold k0_pay2
  exact shapeCast_1ab_ab_apply x1 shapeCasts_S1x512x1024_S512x1024 r h

/-- The encoder block with its unit axis dropped reads row `s`, column `h` of the block. -/
theorem pay3_apply (x0 : Vec Ideal S1x2048x1024 .bf16) (s : Fin 2048) (h : Fin 1024) :
    k0_pay3 (F := Ideal) x0 (ix2 s h) = x0 (ix3 (0 : Fin 1) s h) := by
  unfold k0_pay3
  exact shapeCast_1ab_ab_apply x0 shapeCasts_S1x2048x1024_S2048x1024 s h

/-! ## The weights tile -/

/-- The tile's scores: queries against encoder rows, contracted over the 1024 features. -/
def scoresT (x1 : Vec Ideal S1x512x1024 .bf16) (x0 : Vec Ideal S1x2048x1024 .bf16) : FVec Ideal S512x2048 .f32 :=
  matmul dot_S512x1024_S2048x1024_S512x2048_1_1_0_0_n_n none (k0_pay2 (F := Ideal) x1) (k0_pay3 (F := Ideal) x0)
    (constant (F := Ideal) S512x2048 .f32 0x00000000#32)

/-- The scores with the positions at or past the length filled. -/
def maskedT (len : BitVec 32) (v : FVec Ideal S512x2048 .f32) : FVec Ideal S512x2048 .f32 :=
  select (cmpi .slt (iota .tc S512x2048 32 [1] iota_S512x2048_d1_w32) (broadcast S512x2048 len)) v
    (broadcast S512x2048 (Scalar.ofBits (F := Ideal) .f32 0xF149F2CA#32))

/-- Each row's maximum, kept as a column and spread over the row again. -/
def rowMaxT (v : FVec Ideal S512x2048 .f32) : FVec Ideal S512x2048 .f32 :=
  broadcastTo S512x2048 (shapeCast S512x1
    (multiReduction (F := Ideal) .maximumf [1] S512 v 0xFF800000#32 reduces_S512x2048_S512 (.inl rfl) rfl) shapeCasts_S512_S512x1)
    broadcasts_S512x1_S512x2048

/-- Each row's sum, kept as a column and spread over the row again. -/
def rowSumT (v : FVec Ideal S512x2048 .f32) : FVec Ideal S512x2048 .f32 :=
  broadcastTo S512x2048 (shapeCast S512x1
    (multiReduction (F := Ideal) .add [1] S512 v 0x00000000#32 reduces_S512x2048_S512 (.inl rfl) rfl) shapeCasts_S512_S512x1)
    broadcasts_S512x1_S512x2048

/-- The row softmax as the body spells it. -/
def softT (v : FVec Ideal S512x2048 .f32) : FVec Ideal S512x2048 .f32 :=
  divf (exp (subf v (rowMaxT v))) (rowSumT (exp (subf v (rowMaxT v))))

/-- The body's weights payload is these four steps composed. -/
theorem pay4_eq (len : BitVec 32) (x1 : Vec Ideal S1x512x1024 .bf16) (x0 : Vec Ideal S1x2048x1024 .bf16) :
    k0_pay4 (F := Ideal) len x1 x0 = softT (maskedT len (scoresT x1 x0)) := rfl

theorem scoresT_apply (x1 : Vec Ideal S1x512x1024 .bf16) (x0 : Vec Ideal S1x2048x1024 .bf16) (r : Fin 512) (s : Fin 2048) :
    scoresT x1 x0 (ix2 r s) = score (qOf x1 r) (encOf x0) s := by
  unfold scoresT score
  refine (LibMatProdNT.matmul_zero_apply (A := 512) (K := 1024) (B := 2048) _ rfl none
    (k0_pay2 (F := Ideal) x1) (k0_pay3 (F := Ideal) x0) r s).trans ?_
  refine Finset.sum_congr rfl fun h _ => ?_
  rw [pay2_apply, pay3_apply]

theorem maskedT_apply (len : BitVec 32) (v : FVec Ideal S512x2048 .f32) (r : Fin 512) (s : Fin 2048) :
    maskedT len v (ix2 r s) = masked len (fun s' => v (ix2 r s')) s := by
  have e := iota_single_apply .tc S512x2048 32 1 iota_S512x2048_d1_w32 (ix2 r s)
  show Scalar.select (IntOp.cmpi .slt (iota .tc S512x2048 32 [1] iota_S512x2048_d1_w32 (ix2 r s)) len) (v (ix2 r s)) fill = _
  rw [e]
  rfl

/-- The coordinates a row reduction inserts: row `r`, position `k`. -/
theorem lift_row (r : Fin 512) (k : Fin 2048) : reduces_S512x2048_S512.lift (ix1 r) k = ix2 r k :=
  funext fun a => Fin.ext (by match a with | ⟨0, _⟩ => rfl | ⟨1, _⟩ => rfl)

theorem rowMaxT_apply (v : FVec Ideal S512x2048 .f32) (r : Fin 512) (s : Fin 2048) :
    rowMaxT v (ix2 r s) = rowMax (fun s' => v (ix2 r s')) := by
  unfold rowMaxT rowMax
  refine (LibColumn.broadcastTo_a1_ab_apply _ broadcasts_S512x1_S512x2048 r s).trans ?_
  refine (LibColumn.shapeCast_a_a1_apply _ shapeCasts_S512_S512x1 r 0).trans ?_
  refine (Ideal.multiReduction_maximumf_single v _ reduces_S512x2048_S512 (.inl rfl) rfl (ix1 r)).trans ?_
  have e : (v ∘ reduces_S512x2048_S512.lift (ix1 r)) = fun s' : Fin 2048 => v (ix2 r s') :=
    funext fun k => congrArg v (lift_row r k)
  rw [e]
  rfl

theorem rowSumT_apply (v : FVec Ideal S512x2048 .f32) (r : Fin 512) (s : Fin 2048) :
    rowSumT v (ix2 r s) = ∑ k : Fin 2048, v (ix2 r k) := by
  unfold rowSumT
  refine (LibColumn.broadcastTo_a1_ab_apply _ broadcasts_S512x1_S512x2048 r s).trans ?_
  refine (LibColumn.shapeCast_a_a1_apply _ shapeCasts_S512_S512x1 r 0).trans ?_
  refine (Ideal.multiReduction_add_single v _ reduces_S512x2048_S512 (.inl rfl) rfl (ix1 r)).trans ?_
  exact Finset.sum_congr rfl fun k _ => congrArg v (lift_row r k)

theorem softT_apply (v : FVec Ideal S512x2048 .f32) (r : Fin 512) (s : Fin 2048) :
    softT v (ix2 r s) = softmax (fun s' => v (ix2 r s')) s := by
  unfold softT softmax
  show Ideal.div (Ideal.exp (v (ix2 r s) - rowMaxT v (ix2 r s))) (rowSumT (exp (subf v (rowMaxT v))) (ix2 r s)) = _
  rw [rowSumT_apply, rowMaxT_apply]
  refine congrArg _ (Finset.sum_congr rfl fun k _ => ?_)
  show Ideal.exp (v (ix2 r k) - rowMaxT v (ix2 r k)) = _
  rw [rowMaxT_apply]

/-- Row `r` of the weights the body computes: the attention weights of query row `r`. -/
theorem pay4_apply (len : BitVec 32) (x1 : Vec Ideal S1x512x1024 .bf16) (x0 : Vec Ideal S1x2048x1024 .bf16)
    (r : Fin 512) (s : Fin 2048) :
    k0_pay4 (F := Ideal) len x1 x0 (ix2 r s) = weights len (qOf x1 r) (encOf x0) s := by
  have e1 : (fun s' : Fin 2048 => scoresT x1 x0 (ix2 r s')) = score (qOf x1 r) (encOf x0) :=
    funext fun s' => scoresT_apply x1 x0 r s'
  have e2 : (fun s' : Fin 2048 => maskedT len (scoresT x1 x0) (ix2 r s')) = masked len (score (qOf x1 r) (encOf x0)) :=
    funext fun s' => (maskedT_apply len _ r s').trans (by rw [e1])
  rw [pay4_eq, softT_apply, e2]
  rfl

/-- The stored weights tile, its unit axis put back. -/
theorem pay5_apply (len : BitVec 32) (x1 : Vec Ideal S1x512x1024 .bf16) (x0 : Vec Ideal S1x2048x1024 .bf16)
    (u : Fin 1) (r : Fin 512) (s : Fin 2048) :
    k0_pay5 (F := Ideal) len x1 x0 (ix3 u r s) = weights len (qOf x1 r) (encOf x0) s := by
  unfold k0_pay5
  exact (shapeCast_ab_1ab_apply _ shapeCasts_S512x2048_S1x512x2048 u r s).trans (pay4_apply len x1 x0 r s)

/-! ## The states tile -/

/-- The weights tile against the encoder rows, contracted over the 2048 positions. -/
def mixT (a : FVec Ideal S512x2048 .f32) (x0 : Vec Ideal S1x2048x1024 .bf16) : FVec Ideal S512x1024 .f32 :=
  matmul dot_S512x2048_S2048x1024_S512x1024_1_0_0_1_n_n none (truncf .bf16 a bitsLt_bf16_f32) (k0_pay3 (F := Ideal) x0)
    (constant (F := Ideal) S512x1024 .f32 0x00000000#32)

/-- The mixed rows against the weight's left half plus the query rows against its right half. -/
def projT (c : FVec Ideal S512x1024 .f32) (x1 : Vec Ideal S1x512x1024 .bf16) (x2 x3 : Vec Ideal S1024x1024 .bf16) :
    FVec Ideal S512x1024 .f32 :=
  addf
    (matmul (φ₂ := .bf16) dot_S512x1024_S1024x1024_S512x1024_1_1_0_0_n_n none (truncf .bf16 c bitsLt_bf16_f32)
      (shapeCast S1024x1024 x2 shapeCasts_S1024x1024_S1024x1024) (constant (F := Ideal) S512x1024 .f32 0x00000000#32))
    (matmul (φ₂ := .bf16) dot_S512x1024_S1024x1024_S512x1024_1_1_0_0_n_n none (k0_pay2 (F := Ideal) x1)
      (shapeCast S1024x1024 x3 shapeCasts_S1024x1024_S1024x1024) (constant (F := Ideal) S512x1024 .f32 0x00000000#32))

/-- The body's pre-bias payload is these two steps over the weights. -/
theorem pay6_eq (len : BitVec 32) (x1 : Vec Ideal S1x512x1024 .bf16) (x0 : Vec Ideal S1x2048x1024 .bf16)
    (x2 x3 : Vec Ideal S1024x1024 .bf16) :
    k0_pay6 (F := Ideal) len x1 x0 x2 x3 = projT (mixT (k0_pay4 (F := Ideal) len x1 x0) x0) x1 x2 x3 := rfl

theorem mixT_apply (a : FVec Ideal S512x2048 .f32) (x0 : Vec Ideal S1x2048x1024 .bf16) (r : Fin 512) (h : Fin 1024) :
    mixT a x0 (ix2 r h) = mix (fun s => a (ix2 r s)) (encOf x0) h := by
  unfold mixT mix
  refine (LibMatProd.matmul_zero_apply (A := 512) (K := 2048) (B := 1024) _ rfl none
    (truncf .bf16 a bitsLt_bf16_f32) (k0_pay3 (F := Ideal) x0) r h).trans ?_
  refine Finset.sum_congr rfl fun s _ => ?_
  rw [pay3_apply]
  rfl

theorem projT_apply (c : FVec Ideal S512x1024 .f32) (x1 : Vec Ideal S1x512x1024 .bf16) (x2 x3 : Vec Ideal S1024x1024 .bf16)
    (r : Fin 512) (h : Fin 1024) :
    projT c x1 x2 x3 (ix2 r h)
      = (∑ f : Fin 1024, c (ix2 r f) * x2 (ix2 h f)) + ∑ f : Fin 1024, qOf x1 r f * x3 (ix2 h f) := by
  unfold projT
  refine congrArg₂ (· + ·)
    ((LibMatProdNT.matmul_zero_apply (A := 512) (K := 1024) (B := 1024) (φ₂ := .bf16) _ rfl none (truncf .bf16 c bitsLt_bf16_f32)
      (shapeCast S1024x1024 x2 shapeCasts_S1024x1024_S1024x1024) r h).trans (Finset.sum_congr rfl fun f _ => ?_))
    ((LibMatProdNT.matmul_zero_apply (A := 512) (K := 1024) (B := 1024) (φ₂ := .bf16) _ rfl none (k0_pay2 (F := Ideal) x1)
      (shapeCast S1024x1024 x3 shapeCasts_S1024x1024_S1024x1024) r h).trans (Finset.sum_congr rfl fun f _ => ?_))
  · rw [shapeCast_self]; rfl
  · rw [pay2_apply, shapeCast_self]

/-- The bias with a unit axis put in front reads entry `h`. -/
theorem pay7_apply (x4 : Vec Ideal S1024 .f32) (u : Fin 1) (h : Fin 1024) :
    k0_pay7 (F := Ideal) x4 (ix2 u h) = x4 (ix1 h) := by
  unfold k0_pay7
  exact shapeCast_a_1a_apply x4 shapeCasts_S1024_S1x1024 u h

/-- The stored states tile from the pre-bias tile `v` and the bias row `β`: `tanh (v + β)`, the unit axis put back. -/
theorem pay1_apply (v : FVec Ideal S512x1024 .f32) (β : FVec Ideal S1x1024 .f32) (u : Fin 1) (r : Fin 512) (h : Fin 1024) :
    k0_pay1 (F := Ideal) v β (ix3 u r h) = Ideal.tanh (v (ix2 r h) + β (ix2 (0 : Fin 1) h)) := by
  unfold k0_pay1
  refine (shapeCast_ab_1ab_apply _ shapeCasts_S512x1024_S1x512x1024 u r h).trans ?_
  show Ideal.tanh (v (ix2 r h) + broadcastTo S512x1024 β broadcasts_S1x1024_S512x1024 (ix2 r h)) = _
  rw [broadcastTo_1b_ab_apply]

/-- Row `r` of the states tile the body stores: the projection of query row `r`'s mix of the encoder rows. -/
theorem states_apply (len : BitVec 32) (x1 : Vec Ideal S1x512x1024 .bf16) (x0 : Vec Ideal S1x2048x1024 .bf16)
    (x2 x3 : Vec Ideal S1024x1024 .bf16) (x4 : Vec Ideal S1024 .f32) (u : Fin 1) (r : Fin 512) (h : Fin 1024) :
    k0_pay1 (F := Ideal) (k0_pay6 (F := Ideal) len x1 x0 x2 x3) (k0_pay7 (F := Ideal) x4) (ix3 u r h)
      = project2 (mix (weights len (qOf x1 r) (encOf x0)) (encOf x0)) (qOf x1 r)
          (fun h f => x2 (ix2 h f)) (fun h f => x3 (ix2 h f)) (fun h => x4 (ix1 h)) h := by
  have ea : (fun s : Fin 2048 => k0_pay4 (F := Ideal) len x1 x0 (ix2 r s)) = weights len (qOf x1 r) (encOf x0) :=
    funext fun s => pay4_apply len x1 x0 r s
  rw [pay1_apply, pay7_apply, pay6_eq, projT_apply]
  unfold project2
  refine congrArg (fun z => Ideal.tanh (z + x4 (ix1 h))) (congrArg (· + _) (Finset.sum_congr rfl fun f _ => ?_))
  rw [mixT_apply, ea]

end Cert.KerRows

end
-- ==== Proof.KerPieces.lean ====
/-
  What one run of the kernel body leaves in its two output tiles.

  The body loads its five input blocks whole, reads one length word of the table at the grid point's batch coordinate,
  and stores each output tile once, whole. So the weights tile ends holding the weights payload of the word, the query
  block and the encoder block, and the states tile the states payload of those and of the weight's two halves and the
  bias: the covering store's value, whatever the tiles held before.
-/
import proofs.«403672_j15187004358886_2_alg».proof.Proof.Gen.KernelIdeal.Frame
import Idealize.ShloMosaic.Lib.Pipeline.Value
import Idealize.ShloMosaic.Lib.Tactic

set_option maxRecDepth 16384

noncomputable section

namespace Cert.KerPieces

open Cert.KernelIdeal Cert.KernelIdeal.Gen Idealize.ShloMosaic Idealize.ShloMosaic.TcCoe Idealize.ShloMosaic.Tactic Idealize.SL.Sem

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The length word the body reads at grid coordinates `i`, off the table's contents `xt0`: the table's entry at the
    batch coordinate. -/
def wordAt (c : Dev nD) (i : grid0.Coords) (xt0 : TbBuf0 (F := F) c tbM0_0) : Elt F .i32 :=
  View.readAt (Elt F) tbM0_0.view (Rect.unit (s := S32) (k0_off1 i) S1.size (k0_off1_inb i)).toLoadRect xt0
    (Shape.Idx.first (numel1_S1.symm ▸ Nat.one_pos))

/-- The weights tile after the body: the weights payload of the length word and the two loaded blocks. -/
theorem out5_piece (c : Dev nD) (i : grid0.Coords) (arg3 : Memref sig .tc .vmem S1x2048x1024 .bf16) (harg3 : arg3.IsWhole) (arg4 : Memref sig .tc .vmem S1x512x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024 .f32) (harg7 : arg7.IsWhole) (arg8 : Memref sig .tc .vmem S1x512x2048 .f32) (harg8 : arg8.IsWhole) (arg9 : Memref sig .tc .vmem S1x512x1024 .f32) (harg9 : arg9.IsWhole)
    (x0 : Vec F S1x2048x1024 .bf16) (x1 : Vec F S1x512x1024 .bf16) (x2 : Vec F S1024x1024 .bf16) (x3 : Vec F S1024x1024 .bf16) (x4 : Vec F S1024 .f32) (xt0 : TbBuf0 (F := F) c tbM0_0) :
    out0_A_5 c i arg3 harg3 arg4 harg4 arg5 harg5 arg6 harg6 arg7 harg7 arg8 harg8 arg9 harg9 x0 x1 x2 x3 x4 xt0 = k0_pay5 (wordAt c i xt0) x1 x0 := by
  unfold out0_A_5
  rw [View.read_writes_eq_canon _ _ _ (cover0_A_5 c i arg3 harg3 arg4 harg4 arg5 harg5 arg6 harg6 arg7 harg7 arg8 harg8 arg9 harg9 x0 x1 x2 x3 x4 xt0)]
  unfold kernelRun0_A
  dsimp only
  sl_unfold_words
  rw [View.canon_unit_zero hz3]
  simp only [View.readAt_eq_ld, harg3.read_unread, harg4.read_unread, View.ld_unit_zero (S := S1x2048x1024) hz3,
    View.ld_unit_zero (S := S1x512x1024) hz3]
  rfl

/-- The states tile after the body: the states payload of the length word and the five loaded blocks. -/
theorem out6_piece (c : Dev nD) (i : grid0.Coords) (arg3 : Memref sig .tc .vmem S1x2048x1024 .bf16) (harg3 : arg3.IsWhole) (arg4 : Memref sig .tc .vmem S1x512x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024 .f32) (harg7 : arg7.IsWhole) (arg8 : Memref sig .tc .vmem S1x512x2048 .f32) (harg8 : arg8.IsWhole) (arg9 : Memref sig .tc .vmem S1x512x1024 .f32) (harg9 : arg9.IsWhole)
    (x0 : Vec F S1x2048x1024 .bf16) (x1 : Vec F S1x512x1024 .bf16) (x2 : Vec F S1024x1024 .bf16) (x3 : Vec F S1024x1024 .bf16) (x4 : Vec F S1024 .f32) (xt0 : TbBuf0 (F := F) c tbM0_0) :
    out0_A_6 c i arg3 harg3 arg4 harg4 arg5 harg5 arg6 harg6 arg7 harg7 arg8 harg8 arg9 harg9 x0 x1 x2 x3 x4 xt0 = k0_pay1 (k0_pay6 (wordAt c i xt0) x1 x0 x2 x3) (k0_pay7 x4) := by
  unfold out0_A_6
  rw [View.read_writes_eq_canon _ _ _ (cover0_A_6 c i arg3 harg3 arg4 harg4 arg5 harg5 arg6 harg6 arg7 harg7 arg8 harg8 arg9 harg9 x0 x1 x2 x3 x4 xt0)]
  unfold kernelRun0_A
  dsimp only
  sl_unfold_words
  rw [View.canon_unit_zero hz3]
  simp only [View.readAt_eq_ld, harg3.read_unread, harg4.read_unread, harg5.read_unread, harg6.read_unread, harg7.read_unread,
    View.ld_unit_zero (S := S1x2048x1024) hz3, View.ld_unit_zero (S := S1x512x1024) hz3, View.ld_unit_zero (S := S1024x1024) hz2,
    View.ld_unit_zero (S := S1024) hz1]
  rfl

end Cert.KerPieces

end
-- ==== Proof.KerArrays.lean ====
/-
  The kernel's two result arrays after the region, as whole-array functions of the arguments.

  What grid point `t = 2 b + j` writes back is block `(b, j)` of ONE function of the argument arrays: in the weights array
  `[32, 1024, 2048]` the attention weights of query `(512 j + r, b)`, in the batch-major states array `[32, 1024, 1024]` its
  projected state. Every index of either array lies in exactly the block of point `2 (i 0) + (i 1) / 512`, so after the
  run the arrays hold those functions.
-/
import proofs.«403672_j15187004358886_2_alg».proof.Proof.KerBlocks
import proofs.«403672_j15187004358886_2_alg».proof.Proof.KerRows
import proofs.«403672_j15187004358886_2_alg».proof.Proof.KerPieces

set_option maxRecDepth 16384

noncomputable section

namespace Cert.KerArrays

open Cert.KernelIdeal Cert.KernelIdeal.Gen Cert.Attention Cert.KerBlocks Cert.KerRows Cert.KerPieces
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (hO : Ok m)

/-! ## The two functions -/

/-- The weights array `[32, 1024, 2048]`: entry `[b, t, s]`. -/
def attnArr (c : Dev nD) : S32x1024x2048.Idx → EReal := fun i =>
  attnAt (ctxA m c) (lenA m c) (dhsA m c) ⟨(i 0).val, (i 0).isLt⟩ ⟨(i 1).val, (i 1).isLt⟩ ⟨(i 2).val, (i 2).isLt⟩

/-- The states array, batch-major `[32, 1024, 1024]`: entry `[b, t, h]`. -/
def stateArrBM (c : Dev nD) : S32x1024x1024.Idx → EReal := fun i =>
  stateAt (ctxA m c) (lenA m c) (dhsA m c) (wA m c) (βA m c) ⟨(i 1).val, (i 1).isLt⟩ ⟨(i 0).val, (i 0).isLt⟩ ⟨(i 2).val, (i 2).isLt⟩

/-! ## The length word at a point -/

/-- The word the body reads at point `t` is the length of batch entry `t / 2`. -/
theorem word_eq (c : Dev nD) (t : Fin grid0.N) (b : Fin 32) (hb : b.val = t.val / 2) :
    wordAt (F := Ideal) c (grid0.coords t) (tbl m 0) = lenA m c (ix1 b) := by
  obtain rfl : c = 0 := Subsingleton.elim _ _
  have e := coord0_facts t
  have h1 : wordAt (F := Ideal) 0 (grid0.coords t) (tbl m 0) = (tbl m 0 : S32.Idx → BitVec 32) (ix1 b) := by
    unfold wordAt
    show (tbl m 0 : S32.Idx → BitVec 32) _ = _
    refine congrArg _ (funext fun a => Fin.ext ?_)
    match a with
    | ⟨0, _⟩ => show k0_off1 (grid0.coords t) (0 : Fin 1) + 1 * 0 = b.val; rw [e]; omega
  rw [h1]
  exact congrFun (V_main_arg1 m 0) (ix1 b)

/-! ## A tile is a block of the function -/

/-- Row `r` of the weights tile at point `t` is the array's row under it. -/
theorem attn_tile (c : Dev nD) (t : Fin (cfgM m hO).N) (i : S32x1024x2048.Idx) (r : Fin 512) (s : Fin 2048)
    (h0 : (i 0).val = t.val / 2) (h1 : (i 1).val = t.val % 2 * 512 + r.val) (h2 : (i 2).val = s.val) :
    weights (lenA m c (ix1 ⟨(i 0).val, (i 0).isLt⟩)) (qOf (qBlk m hO c t) r) (encOf (encBlk m hO c t)) s = attnArr m c i := by
  unfold attnArr attnAt
  have eq : qOf (qBlk m hO c t) r = qrow (dhsA m c) ⟨(i 1).val, (i 1).isLt⟩ ⟨(i 0).val, (i 0).isLt⟩ :=
    funext fun h => qBlk_apply m hO c t ⟨(i 0).val, (i 0).isLt⟩ h0 ⟨(i 1).val, (i 1).isLt⟩ r h1 0 h
  have ee : encOf (encBlk m hO c t) = encRows (ctxA m c) ⟨(i 0).val, (i 0).isLt⟩ :=
    funext fun s' => funext fun h => encBlk_apply m hO c t ⟨(i 0).val, (i 0).isLt⟩ h0 0 s' h
  have es : s = ⟨(i 2).val, (i 2).isLt⟩ := Fin.ext h2.symm
  rw [eq, ee, es]

/-- Row `r` of the states tile at point `t` is the array's row under it. -/
theorem state_tile (c : Dev nD) (t : Fin (cfgM m hO).N) (i : S32x1024x1024.Idx) (r : Fin 512) (h : Fin 1024)
    (h0 : (i 0).val = t.val / 2) (h1 : (i 1).val = t.val % 2 * 512 + r.val) (h2 : (i 2).val = h.val) :
    project2 (mix (weights (lenA m c (ix1 ⟨(i 0).val, (i 0).isLt⟩)) (qOf (qBlk m hO c t) r) (encOf (encBlk m hO c t)))
        (encOf (encBlk m hO c t))) (qOf (qBlk m hO c t) r)
        (fun h f => wlBlk m hO c t (ix2 h f)) (fun h f => wrBlk m hO c t (ix2 h f)) (fun h => bBlk m hO c t (ix1 h)) h
      = stateArrBM m c i := by
  unfold stateArrBM stateAt attnAt project
  have eq : qOf (qBlk m hO c t) r = qrow (dhsA m c) ⟨(i 1).val, (i 1).isLt⟩ ⟨(i 0).val, (i 0).isLt⟩ :=
    funext fun h => qBlk_apply m hO c t ⟨(i 0).val, (i 0).isLt⟩ h0 ⟨(i 1).val, (i 1).isLt⟩ r h1 0 h
  have ee : encOf (encBlk m hO c t) = encRows (ctxA m c) ⟨(i 0).val, (i 0).isLt⟩ :=
    funext fun s' => funext fun h => encBlk_apply m hO c t ⟨(i 0).val, (i 0).isLt⟩ h0 0 s' h
  have el : (fun h f : Fin 1024 => wlBlk m hO c t (ix2 h f)) = fun h f => wA m c (ix2 h (lo f)) :=
    funext fun h => funext fun f => wlBlk_apply m hO c t h f
  have er : (fun h f : Fin 1024 => wrBlk m hO c t (ix2 h f)) = fun h f => wA m c (ix2 h (hi f)) :=
    funext fun h => funext fun f => wrBlk_apply m hO c t h f
  have eb : (fun h : Fin 1024 => bBlk m hO c t (ix1 h)) = fun h => βA m c (ix1 h) :=
    funext fun h => bBlk_apply m hO c t h
  have es : h = ⟨(i 2).val, (i 2).isLt⟩ := Fin.ext h2.symm
  rw [eq, ee, el, er, eb, es]

end Cert.KerArrays

end
-- ==== Proof.KerFinal.lean ====
/-
  The kernel's run, read: its two results as functions of the arguments.

  Each grid point writes back its tile of the weights array and of the batch-major states array (the blocks of ONE
  function each: Proof/KerArrays.lean); the 64 blocks of either array tile it, so after the region the arrays hold those
  functions; the host line after the region transposes the states to time-major. Hence the program ends with the weights
  result at `attnArr` and the states result at `stateArr`, its arguments unchanged.
-/
import proofs.«403672_j15187004358886_2_alg».proof.Proof.KerArrays
import Idealize.ShloMosaic.Lib.StableHlo.Run

set_option maxRecDepth 16384

noncomputable section

namespace Cert.KerFinal

open Cert.KernelIdeal Cert.KernelIdeal.Gen Cert.Attention Cert.KerBlocks Cert.KerRows Cert.KerPieces Cert.KerArrays
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg) (hO : Ok m)

/-- The states result, time-major `[1024, 32, 1024]`: entry `[t, b, h]`. -/
def stateArr (c : Dev nD) : S1024x32x1024.Idx → EReal := fun i =>
  stateAt (ctxA m c) (lenA m c) (dhsA m c) (wA m c) (βA m c) ⟨(i 0).val, (i 0).isLt⟩ ⟨(i 1).val, (i 1).isLt⟩ ⟨(i 2).val, (i 2).isLt⟩

/-! ## What a point writes back -/

/-- The weights payload at point `t`, row `r`, is the weights array under it. -/
theorem attn_block_at (c : Dev nD) (t : Fin (cfgM m hO).N) (i : S32x1024x2048.Idx) (u : Fin 1) (r : Fin 512) (s : Fin 2048)
    (h0 : (i 0).val = t.val / 2) (h1 : (i 1).val = t.val % 2 * 512 + r.val) (h2 : (i 2).val = s.val) :
    k0_pay5 (F := Ideal) (wordAt (F := Ideal) c (grid0.coords t) (tbl m 0)) (qBlk m hO c t) (encBlk m hO c t) (ix3 u r s)
      = attnArr m c i := by
  rw [pay5_apply, word_eq m c t ⟨(i 0).val, (i 0).isLt⟩ h0]
  exact attn_tile m hO c t i r s h0 h1 h2

/-- The states payload at point `t`, row `r`, is the batch-major states array under it. -/
theorem state_block_at (c : Dev nD) (t : Fin (cfgM m hO).N) (i : S32x1024x1024.Idx) (u : Fin 1) (r : Fin 512) (h : Fin 1024)
    (h0 : (i 0).val = t.val / 2) (h1 : (i 1).val = t.val % 2 * 512 + r.val) (h2 : (i 2).val = h.val) :
    k0_pay1 (F := Ideal) (k0_pay6 (F := Ideal) (wordAt (F := Ideal) c (grid0.coords t) (tbl m 0)) (qBlk m hO c t) (encBlk m hO c t)
        (wlBlk m hO c t) (wrBlk m hO c t)) (k0_pay7 (F := Ideal) (bBlk m hO c t)) (ix3 u r h)
      = stateArrBM m c i := by
  rw [states_apply, word_eq m c t ⟨(i 0).val, (i 0).isLt⟩ h0]
  exact state_tile m hO c t i r h h0 h1 h2

-- the window's block and array types are the literal shapes only after unfolding the pipeline's configuration
set_option backward.isDefEq.respectTransparency.types false in
/-- WHAT POINT `t` WRITES BACK to the weights array is its block of `attnArr`. -/
theorem flushed5_eq (c : Dev nD) (t : Fin (cfgM m hO).N) :
    (dats m hO 0 c).flushed 5 t = (((cfgM m hO).win 5).blk t).view.read (Elt Ideal) (attnArr m c) := by
  obtain ⟨-, -, -, -, -, -, -, -, -, -, -, e0, e1, e2, -⟩ := idx_facts (adm m hO) t
  show ((cfgM m hO).win 5).cut (grid0.coords t) ((dats m hO 0 c).after 5 t) = _
  rw [after0_5]
  unfold outsAt0
  dsimp only
  rw [out5_piece]
  funext j
  obtain ⟨u, r, s, rfl⟩ : ∃ (u : Fin 1) (r : Fin 512) (s : Fin 2048), j = ix3 u r s :=
    ⟨_, _, _, eq_ix3 (n0 := 1) (n1 := 512) (n2 := 2048) j⟩
  have hu : u.val = 0 := by omega
  rw [View.read_apply]
  refine attn_block_at m hO c t _ u r s ?_ ?_ ?_
  · show ((cfg0 (adm m hO)).win 5).index t (0 : Fin 3) * 1 + 1 * u.val = _; rw [e0, hu]; omega
  · show ((cfg0 (adm m hO)).win 5).index t (1 : Fin 3) * 512 + 1 * r.val = _; rw [e1]; omega
  · show ((cfg0 (adm m hO)).win 5).index t (2 : Fin 3) * 2048 + 1 * s.val = _; rw [e2]; omega

-- the window's block and array types are the literal shapes only after unfolding the pipeline's configuration
set_option backward.isDefEq.respectTransparency.types false in
/-- WHAT POINT `t` WRITES BACK to the states array is its block of `stateArrBM`. -/
theorem flushed6_eq (c : Dev nD) (t : Fin (cfgM m hO).N) :
    (dats m hO 0 c).flushed 6 t = (((cfgM m hO).win 6).blk t).view.read (Elt Ideal) (stateArrBM m c) := by
  obtain ⟨-, -, -, -, -, -, -, -, -, -, -, -, -, -, e0, e1, e2⟩ := idx_facts (adm m hO) t
  show ((cfgM m hO).win 6).cut (grid0.coords t) ((dats m hO 0 c).after 6 t) = _
  rw [after0_6]
  unfold outsAt0
  dsimp only
  rw [out6_piece]
  funext j
  obtain ⟨u, r, h, rfl⟩ : ∃ (u : Fin 1) (r : Fin 512) (h : Fin 1024), j = ix3 u r h :=
    ⟨_, _, _, eq_ix3 (n0 := 1) (n1 := 512) (n2 := 1024) j⟩
  have hu : u.val = 0 := by omega
  rw [View.read_apply]
  refine state_block_at m hO c t _ u r h ?_ ?_ ?_
  · show ((cfg0 (adm m hO)).win 6).index t (0 : Fin 3) * 1 + 1 * u.val = _; rw [e0, hu]; omega
  · show ((cfg0 (adm m hO)).win 6).index t (1 : Fin 3) * 512 + 1 * r.val = _; rw [e1]; omega
  · show ((cfg0 (adm m hO)).win 6).index t (2 : Fin 3) * 1024 + 1 * h.val = _; rw [e2]; omega

/-! ## The blocks tile the arrays -/

-- the window's block and array types are the literal shapes only after unfolding the pipeline's configuration
set_option backward.isDefEq.respectTransparency.types false in
/-- An index of the weights array whose batch entry and query row are point `t`'s is in point `t`'s block: it is the block's
    index `(0, r, i 2)` carried into the array. -/
theorem mem_blk5_of (t : Fin (cfgM m hO).N) (i : S32x1024x2048.Idx) (r : Fin 512) (s : Fin 2048)
    (h0 : (i 0).val = t.val / 2) (h1 : (i 1).val = t.val % 2 * 512 + r.val) (h2 : (i 2).val = s.val) :
    i ∈ (((cfgM m hO).win 5).blk t).view.set := by
  obtain ⟨-, -, -, -, -, -, -, -, -, -, -, e0, e1, e2, -⟩ := idx_facts (adm m hO) t
  have e : (((cfgM m hO).win 5).blk t).view.emb (ix3 (0 : Fin 1) r s) = i := by
    funext a; apply Fin.ext
    match a with
    | ⟨0, _⟩ => show ((cfg0 (adm m hO)).win 5).index t (0 : Fin 3) * 1 + 1 * 0 = (i 0).val; rw [e0]; omega
    | ⟨1, _⟩ => show ((cfg0 (adm m hO)).win 5).index t (1 : Fin 3) * 512 + 1 * r.val = (i 1).val; rw [e1]; omega
    | ⟨2, _⟩ => show ((cfg0 (adm m hO)).win 5).index t (2 : Fin 3) * 2048 + 1 * s.val = (i 2).val; rw [e2]; omega
  rw [← e]
  exact View.emb_mem_set _ _

/-- Every index of the weights array is in the block of point `2 (i 0) + (i 1) / 512`. -/
theorem cover5 (i : S32x1024x2048.Idx) :
    ∃ t : Fin (cfgM m hO).N, ((cfgM m hO).win 5).flush t = true ∧ i ∈ (((cfgM m hO).win 5).blk t).view.set := by
  have hN : (cfgM m hO).N = 64 := N_0
  have b0 : (i 0).val < 32 := (i 0).isLt
  have b1 : (i 1).val < 1024 := (i 1).isLt
  have ht : 2 * (i 0).val + (i 1).val / 512 < (cfgM m hO).N := by rw [hN]; omega
  refine ⟨⟨2 * (i 0).val + (i 1).val / 512, ht⟩, flush0_5 (adm m hO) _,
    mem_blk5_of m hO ⟨2 * (i 0).val + (i 1).val / 512, ht⟩ i ⟨(i 1).val % 512, Nat.mod_lt _ (by decide)⟩ ⟨(i 2).val, (i 2).isLt⟩ ?_ ?_ rfl⟩
  · show (i 0).val = (2 * (i 0).val + (i 1).val / 512) / 2; omega
  · show (i 1).val = (2 * (i 0).val + (i 1).val / 512) % 2 * 512 + (i 1).val % 512; omega

-- the window's block and array types are the literal shapes only after unfolding the pipeline's configuration
set_option backward.isDefEq.respectTransparency.types false in
/-- An index of the states array whose batch entry and query row are point `t`'s is in point `t`'s block: it is the block's
    index `(0, r, i 2)` carried into the array. -/
theorem mem_blk6_of (t : Fin (cfgM m hO).N) (i : S32x1024x1024.Idx) (r : Fin 512) (s : Fin 1024)
    (h0 : (i 0).val = t.val / 2) (h1 : (i 1).val = t.val % 2 * 512 + r.val) (h2 : (i 2).val = s.val) :
    i ∈ (((cfgM m hO).win 6).blk t).view.set := by
  obtain ⟨-, -, -, -, -, -, -, -, -, -, -, -, -, -, e0, e1, e2⟩ := idx_facts (adm m hO) t
  have e : (((cfgM m hO).win 6).blk t).view.emb (ix3 (0 : Fin 1) r s) = i := by
    funext a; apply Fin.ext
    match a with
    | ⟨0, _⟩ => show ((cfg0 (adm m hO)).win 6).index t (0 : Fin 3) * 1 + 1 * 0 = (i 0).val; rw [e0]; omega
    | ⟨1, _⟩ => show ((cfg0 (adm m hO)).win 6).index t (1 : Fin 3) * 512 + 1 * r.val = (i 1).val; rw [e1]; omega
    | ⟨2, _⟩ => show ((cfg0 (adm m hO)).win 6).index t (2 : Fin 3) * 1024 + 1 * s.val = (i 2).val; rw [e2]; omega
  rw [← e]
  exact View.emb_mem_set _ _

/-- Every index of the states array is in the block of point `2 (i 0) + (i 1) / 512`. -/
theorem cover6 (i : S32x1024x1024.Idx) :
    ∃ t : Fin (cfgM m hO).N, ((cfgM m hO).win 6).flush t = true ∧ i ∈ (((cfgM m hO).win 6).blk t).view.set := by
  have hN : (cfgM m hO).N = 64 := N_0
  have b0 : (i 0).val < 32 := (i 0).isLt
  have b1 : (i 1).val < 1024 := (i 1).isLt
  have ht : 2 * (i 0).val + (i 1).val / 512 < (cfgM m hO).N := by rw [hN]; omega
  refine ⟨⟨2 * (i 0).val + (i 1).val / 512, ht⟩, flush0_6 (adm m hO) _,
    mem_blk6_of m hO ⟨2 * (i 0).val + (i 1).val / 512, ht⟩ i ⟨(i 1).val % 512, Nat.mod_lt _ (by decide)⟩ ⟨(i 2).val, (i 2).isLt⟩ ?_ ?_ rfl⟩
  · show (i 0).val = (2 * (i 0).val + (i 1).val / 512) / 2; omega
  · show (i 1).val = (2 * (i 0).val + (i 1).val / 512) % 2 * 512 + (i 1).val % 512; omega

/-! ## The arrays after the region, and the results after the host line that follows it -/

/-- The weights array ends holding the attention weights. -/
theorem final5 (c : Dev nD) : (dats m hO 0 c).arrAt 5 (cfgM m hO).N = attnArr m c :=
  (dats m hO 0 c).arrAt_eq_of_cover 5 (attnArr m c) (fun t _ => flushed5_eq m hO c t) (cover5 m hO)

/-- The batch-major states array ends holding the projected states. -/
theorem final6 (c : Dev nD) : (dats m hO 0 c).arrAt 6 (cfgM m hO).N = stateArrBM m c :=
  (dats m hO 0 c).arrAt_eq_of_cover 6 (stateArrBM m c) (fun t _ => flushed6_eq m hO c t) (cover6 m hO)

/-- The transpose of the batch-major states is the time-major states. -/
theorem transpose_states (c : Dev nD) :
    transpose S1024x32x1024 [1, 0, 2] (stateArrBM m c) transposes_S32x1024x1024_S1024x32x1024_1_0_2 = stateArr m c := by
  funext i
  obtain ⟨t, b, h, rfl⟩ : ∃ (t : Fin 1024) (b : Fin 32) (h : Fin 1024), i = ix3 t b h := ⟨i 0, i 1, i 2, eq_ix3 i⟩
  exact transpose_apply [1, 0, 2] (stateArrBM m c) transposes_S32x1024x1024_S1024x32x1024_1_0_2 (ix3 t b h) (ix3 b t h)
    (fun a => match a with | ⟨0, _⟩ => rfl | ⟨1, _⟩ => rfl | ⟨2, _⟩ => rfl)

/-- The states result after the host line that follows the region. -/
theorem tail9 (c : Dev nD) :
    Pipeline.afterTail pcfgs (fun _ => adm m hO) (dats m hO) 0 (V0 m) [hostOps1] c main_v9 = stateArr m c := by
  unfold Pipeline.afterTail
  show StableHlo.after hostOps1 _ (Proc.devRef .tc main_v9) = _
  after_results
  rw [Pipeline.withArrays_arr spec0 winFacts0.arr_inj c _ _ 6]
  exact (congrArg (fun X => transpose S1024x32x1024 [1, 0, 2] X transposes_S32x1024x1024_S1024x32x1024_1_0_2) (final6 m hO c)).trans
    (transpose_states m c)

/-! ## The run, read -/

/-- Every weakly fair execution of the program ends with the states result at `stateArr`, the weights result at `attnArr`,
    and the arguments unchanged. -/
theorem run (hO : Ok m) : θ_run defs (onTc (τ := τ) (main (F := Ideal))) ⟨m, fun _ => 0, ρ⟩ fun r => ∀ c : Dev nD,
      r.2.mem ((c : Thread nD τ).loc main_v9) = stateArr m c
      ∧ r.2.mem ((c : Thread nD τ).loc main_v8_0) = attnArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c =>
    ⟨((h c).2 main_v9 (by decide : main_v9 ∈ Pipeline.restRefs sig spec0)).trans (tail9 m hO c),
      ((h c).1 5).trans (final5 m hO c),
      ((h c).2 main_arg0 (by decide : main_arg0 ∈ Pipeline.restRefs sig spec0)).trans (W_main_arg0 m hO (dats m hO) c),
      ((h c).2 main_arg1 (by decide : main_arg1 ∈ Pipeline.restRefs sig spec0)).trans (W_main_arg1 m hO (dats m hO) c),
      ((h c).2 main_arg2 (by decide : main_arg2 ∈ Pipeline.restRefs sig spec0)).trans (W_main_arg2 m hO (dats m hO) c),
      ((h c).2 main_arg3 (by decide : main_arg3 ∈ Pipeline.restRefs sig spec0)).trans (W_main_arg3 m hO (dats m hO) c),
      ((h c).1 4).trans (((dats m hO 0 c).arrAt_in 4 rfl _).trans ((A_eq m hO c 4).trans (V_main_arg4 m c)))⟩)
    (run_main m ρ hO)

end Cert.KerFinal

end
-- ==== Proof.lean ====
/-
  Dot-product attention with a length mask and a tanh output projection: a kernel tiled over (batch entry, 512 query rows)
  against the whole-array reference, equal on the extended reals.

  For encoder states `ctx [2048, 32, 1024]`, lengths `len [32]`, queries `dhs [1024, 32, 1024]`, a weight `W [1024, 2048]` and a
  bias `β [1024]`, both programs return

    weights[b, t, ·] = softmax over s of (Σ_h dhs[t, b, h] · ctx[s, b, h] where s < len[b], the fill −1e30 elsewhere)
    states[t, b, h]  = tanh (Σ_f mix[f] · W[h, f] + Σ_f dhs[t, b, f] · W[h, 1024 + f] + β[h]),  mix[f] = Σ_s weights[b, t, s] · ctx[s, b, f]

  (Proof/Attention.lean). The kernel evaluates them one batch entry and one tile of 512 query rows per grid point, with the
  projection's matrix product cut into the weight's two halves; the reference evaluates them on whole arrays, the
  projection as one product against the concatenation `[mix, dhs]`. On the extended reals the two agree entry by entry:
  a change of float format is the identity, a matrix product into a zero accumulator is the sum over its shared axis
  on both sides, a row maximum and a row sum are a fold and a sum over the row on both sides, the reference's extra
  maximum against −∞ changes nothing, and the sum over the 2048 concatenated columns is the sum over the first 1024 plus
  the sum over the last 1024. No step needs the inputs finite.

  The kernel side: Proof/KerRows.lean (the body's payloads, row by row), Proof/KerPieces.lean (what a run of the body leaves),
  Proof/KerBlocks.lean (the windows' blocks as entries of the arguments), Proof/KerArrays.lean and Proof/KerFinal.lean (the
  two result arrays and the run). The reference side: Proof/RefRows.lean over the reference's run read back
  (Proof/RefRun.lean, Proof/RefRead.lean). The kernel's index maps read no entry of the length table, so the pipeline's
  side condition on the table is `True`.
-/
import proofs.«403672_j15187004358886_2_alg».proof.Defs
import proofs.«403672_j15187004358886_2_alg».proof.Proof.Gen.Kernel
import proofs.«403672_j15187004358886_2_alg».proof.Proof.Gen.Kernel.Skeleton
import proofs.«403672_j15187004358886_2_alg».proof.Proof.Gen.Kernel.Launch
import proofs.«403672_j15187004358886_2_alg».proof.Proof.Gen.Kernel.Points
import proofs.«403672_j15187004358886_2_alg».proof.Proof.Gen.Kernel.Frame
import proofs.«403672_j15187004358886_2_alg».proof.Proof.Gen.KernelIdeal
import proofs.«403672_j15187004358886_2_alg».proof.Proof.Gen.KernelIdeal.Skeleton
import proofs.«403672_j15187004358886_2_alg».proof.Proof.Gen.KernelIdeal.Launch
import proofs.«403672_j15187004358886_2_alg».proof.Proof.Gen.KernelIdeal.Points
import proofs.«403672_j15187004358886_2_alg».proof.Proof.Gen.KernelIdeal.Frame
import proofs.«403672_j15187004358886_2_alg».proof.Proof.Gen.ReferenceIdeal
import proofs.«403672_j15187004358886_2_alg».proof.Proof.Gen.Pre_finite_inputs
import proofs.«403672_j15187004358886_2_alg».proof.Proof.RefRun
import proofs.«403672_j15187004358886_2_alg».proof.Proof.RefRead
import proofs.«403672_j15187004358886_2_alg».proof.Proof.RefRows
import proofs.«403672_j15187004358886_2_alg».proof.Proof.KerFinal
import Idealize.ShloMosaic.Adequacy
import Idealize.ShloMosaic.Init

noncomputable section

namespace Cert.Proof

open Idealize.ShloMosaic Idealize.SL.Sem

/-- The word-level kernel runs and keeps its arguments: its index maps read no table entry. -/
theorem frame_k : Cert.frame_Kernel := fun m ρ _ => Cert.Kernel.Gen.frame m ρ trivial

/-- So does the idealized kernel. -/
theorem frame_ki : Cert.frame_KernelIdeal := fun m ρ _ => Cert.KernelIdeal.Gen.frame m ρ trivial

/-- The reference runs and keeps its arguments: its run read back, the results dropped. -/
theorem frame_ri : Cert.frame_ReferenceIdeal := fun m ρ _ =>
  (θ_run Cert.ReferenceIdeal.defs _ _).mono (fun _ h c => (h c).2.2) (Cert.ReferenceIdeal.ValueP.run (F := Ideal) m ρ)

/-- The idealization rewrote nothing. -/
theorem preserves : Cert.preserves_Kernel_KernelIdeal := trivial

/-- From memories agreeing on the arguments both programs end with the states at `stateAt` and the weights at `attnAt`
    of the arguments, entry by entry. -/
theorem algebraic : Cert.algebraic_KernelIdeal_ReferenceIdeal := by
  intro m ρ m' ρ' _ hagree
  refine ⟨fun c => Cert.KerFinal.stateArr m c, fun c => Cert.KerArrays.attnArr m c, Cert.KerFinal.run m ρ trivial, ?_⟩
  refine (θ_run Cert.ReferenceIdeal.defs _ _).mono (fun _ h c => ⟨(h c).1.trans ?_, (h c).2.1.trans ?_, (h c).2.2⟩)
    (Cert.ReferenceIdeal.ValueP.run (F := Ideal) m' ρ')
  · rw [Cert.ReferenceIdeal.ReadP.val_main_v29_eq, (hagree c).1, (hagree c).2.1, (hagree c).2.2.1, (hagree c).2.2.2.1,
      (hagree c).2.2.2.2]
    funext i
    obtain ⟨t, b, h, rfl⟩ : ∃ (t : Fin 1024) (b : Fin 32) (h : Fin 1024), i = ValueIdx.ix3 t b h :=
      ⟨i 0, i 1, i 2, ValueIdx.eq_ix3 i⟩
    exact Cert.RefRows.ref_states _ _ _ _ _ t b h
  · rw [Cert.ReferenceIdeal.ReadP.val_main_v21_eq, (hagree c).1, (hagree c).2.1, (hagree c).2.2.1]
    funext i
    obtain ⟨b, t, s, rfl⟩ : ∃ (b : Fin 32) (t : Fin 1024) (s : Fin 2048), i = ValueIdx.ix3 b t s :=
      ⟨i 0, i 1, i 2, ValueIdx.eq_ix3 i⟩
    exact Cert.RefRows.ref_weights _ _ _ b t s

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
